-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x7x7 : Shape := ⟨4, ![256, 1024, 7, 7]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S128x3 : Shape := ⟨2, ![128, 3]⟩
abbrev S1x3 : Shape := ⟨2, ![1, 3]⟩
abbrev S_ : Shape := ⟨0, ![]⟩

class Facts : Prop where
  bcast_S_S256x1024x7x7 : S_.BroadcastsInDim S256x1024x7x7 (![] : Fin 0 → Fin S256x1024x7x7.rank)
  reducesTo_S256x1024x7x7_S_d0_1_2_3 : S256x1024x7x7.ReducesTo [0, 1, 2, 3] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1x512 : S_.BroadcastsInDim S1x512 (![] : Fin 0 → Fin S1x512.rank)
  reducesTo_S1x512_S_d0_1 : S1x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_
  bcast_S_S128x3 : S_.BroadcastsInDim S128x3 (![] : Fin 0 → Fin S128x3.rank)
  reducesTo_S128x3_S_d0_1 : S128x3.ReducesTo [0, 1] S_
  bcast_S_S1x3 : S_.BroadcastsInDim S1x3 (![] : Fin 0 → Fin S1x3.rank)
  reducesTo_S1x3_S_d0_1 : S1x3.ReducesTo [0, 1] S_

variable [Facts]

def fn_part1 {F : FTy → Type} [FloatOps F] (main_arg4 : FVec F S1x128 .f32) (main_arg5 : FVec F S128x3 .f32) (main_arg6 : FVec F S1x3 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x3 .f32 := Host.absf main_arg5
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S1x3 .f32 := Host.absf main_arg6
  let main_cst_10 : FVec F S_ .f32 := constant S_ .f32 0x7F800000#32
  let main_v30 : FVec F S1x3 .f32 := broadcastInDim S1x3 ![] bcast_S_S1x3 main_cst_10
  let main_v31 : IVec S1x3 1 := cmpf .olt main_v29 main_v30
  let main_c_11 : IVec S_ 1 := constantI S_ 1 1#1
  let main_v32 : IVec S_ 1 := (fun x v => Host.reduce IntOp.andi x v reducesTo_S1x3_S_d0_1 h_S_) main_v31 main_c_11
  let main_v33 : IVec S_ 1 := andi main_v28 main_v32
  main_v33

def fn {F : FTy → Type} [FloatOps F] (main_arg0 : FVec F S256x1024x7x7 .f32) (main_arg1 : FVec F S1024x512 .f32) (main_arg2 : FVec F S1x512 .f32) (main_arg3 : FVec F S512x128 .f32) (main_arg4 : FVec F S1x128 .f32) (main_arg5 : FVec F S128x3 .f32) (main_arg6 : FVec F S1x3 .f32) : IVec S_ 1 :=
  let main_v0 : FVec F S256x1024x7x7 .f32 := Host.absf main_arg0
  let main_cst : FVec F S_ .f32 := constant S_ .f32 0x7F800000#32
  let main_v1 : FVec F S256x1024x7x7 .f32 := broadcastInDim S256x1024x7x7 ![] bcast_S_S256x1024x7x7 main_cst
  let main_v2 : IVec S256x1024x7x7 1 := cmpf .olt main_v0 main_v1
  let main_c : IVec S_ 1 := constantI S_ 1 1#1
  let main_v3 : IVec S_ 1 := (fun x v => Host.reduce IntOp.andi x v reducesTo_S256x1024x7x7_S_d0_1_2_3 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_v13 main_v16
-- ==== Kernel.lean ====
abbrev S256x1024x7x7 : Shape := ⟨4, ![256, 1024, 7, 7]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S128x3 : Shape := ⟨2, ![128, 3]⟩
abbrev S1x3 : Shape := ⟨2, ![1, 3]⟩
abbrev S7x7x256x1024 : Shape := ⟨4, ![7, 7, 256, 1024]⟩
abbrev S49x256x1024 : Shape := ⟨3, ![49, 256, 1024]⟩
abbrev S_ : Shape := ⟨0, ![]⟩
abbrev S128x128 : Shape := ⟨2, ![128, 128]⟩
abbrev S256x128 : Shape := ⟨2, ![256, 128]⟩
abbrev S49x32x512 : Shape := ⟨3, ![49, 32, 512]⟩
abbrev S32x128 : Shape := ⟨2, ![32, 128]⟩
abbrev S32x512 : Shape := ⟨2, ![32, 512]⟩
abbrev S32x1024 : Shape := ⟨2, ![32, 1024]⟩
abbrev S32 : Shape := ⟨1, ![32]⟩
abbrev S32x1 : Shape := ⟨2, ![32, 1]⟩
abbrev S256x3 : Shape := ⟨2, ![256, 3]⟩

abbrev nBuf : Space → Nat
  | .hbm => 18
  | .vmem => 14
  | .smem => 0
  | _ => 0

abbrev bufTy : (tb : Table) → Fin (tcTables nBuf tb) → BufTy
  | .hbm, ⟨0, _⟩ => ⟨S256x1024x7x7, .f32⟩
  | .hbm, ⟨1, _⟩ => ⟨S1024x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S128x3, .f32⟩
  | .hbm, ⟨6, _⟩ => ⟨S1x3, .f32⟩
  | .hbm, ⟨7, _⟩ => ⟨S7x7x256x1024, .f32⟩
  | .hbm, ⟨8, _⟩ => ⟨S49x256x1024, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S256x128, .f32⟩
  | .hbm, ⟨16, _⟩ => ⟨S256x128, .f32⟩
  | .hbm, ⟨17, _⟩ => ⟨S256x3, .f32⟩
  | .local _ .vmem, ⟨0, _⟩ => ⟨S49x32x512, .f32⟩
  | .local _ .vmem, ⟨1, _⟩ => ⟨S49x32x512, .f32⟩
  | .local _ .vmem, ⟨2, _⟩ => ⟨S49x32x512, .f32⟩
  | .local _ .vmem, ⟨3, _⟩ => ⟨S49x32x512, .f32⟩
  | .local _ .vmem, ⟨4, _⟩ => ⟨S1024x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S256x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S49x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S256x1024x7x7_S7x7x256x1024_2_3_0_1 : S256x1024x7x7.Transposes [2, 3, 0, 1] S7x7x256x1024
  shapeCasts_S7x7x256x1024_S49x256x1024 : S7x7x256x1024.ShapeCasts S49x256x1024
  pads_S128x3_S128x128_000_01250 : S128x3.Pads (![0, 0] : Fin 2 → Nat) ![0, 125] ![0, 0] S128x128
  h_S_ : 0 < S_.numel
  pads_S1x3_S1x128_000_01250 : S1x3.Pads (![0, 0] : Fin 2 → Nat) ![0, 125] ![0, 0] S1x128
  inb_S49x32x512_S49x32x512_0_0_0 : ∀ a, (![0, 0, 0] : Fin 3 → Nat) a + S49x32x512.size a ≤ S49x32x512.size a
  h_S49x32x512 : 0 < S49x32x512.numel
  shapeCasts_S49x32x512_S49x32x512 : S49x32x512.ShapeCasts S49x32x512
  reduces_S49x32x512_S32x512 : S49x32x512.Reduces [0] S32x512
  concatenates_S32x512_S32x512_S32x1024_d1 : Shape.Concatenates [S32x512, S32x512] S32x1024 1
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  broadcasts_S1x512_S32x512 : S1x512.Broadcasts S32x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S32x128 : S1x128.Broadcasts S32x128
  reduces_S32x128_S32 : S32x128.Reduces [1] S32
  shapeCasts_S32_S32x1 : S32.ShapeCasts S32x1
  broadcasts_S32x1_S32x128 : S32x1.Broadcasts S32x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S1x128_S1x128 : S1x128.ShapeCasts S1x128
  slices_S256x128_S256x3_0_0 : S256x128.Slices ![0, 0] S256x3
  dot_S32x1024_S1024x512_S32x512_1_0_0_1_n_n_wf : DotDims.WF S32x1024 S1024x512 S32x512 [1] [0] [0] [1] [] []
  dot_S32x512_S512x128_S32x128_1_0_0_1_n_n_wf : DotDims.WF S32x512 S512x128 S32x128 [1] [0] [0] [1] [] []
  dot_S32x128_S128x128_S32x128_1_0_0_1_n_n_wf : DotDims.WF S32x128 S128x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x32x512.size a ≤ S49x256x1024.size a
  hwx0_0 : ∀ i : grid0.Coords, EltTy.bits .f32 = 32 ∨ (Rect.block (s := S49x256x1024) S49x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S49x32x512.size a ≤ S49x256x1024.size a
  hwx0_1 : ∀ i : grid0.Coords, EltTy.bits .f32 = 32 ∨ (Rect.block (s := S49x256x1024) S49x32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x128.size a ≤ S256x128.size a
  hwx0_8 : ∀ i : grid0.Coords, EltTy.bits .f32 = 32 ∨ (Rect.block (s := S256x128) S32x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x128.size a ≤ S256x128.size a
  hwx0_9 : ∀ i : grid0.Coords, EltTy.bits .f32 = 32 ∨ (Rect.block (s := S256x128) S32x128.size (cc0_transform_9 i) (hinb0_9 i)).WholeWords (EltTy.packing .f32)

variable [Facts₀]

def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf

abbrev win0_0 : Pipeline.Window sig grid0 :=
  Pipeline.Window.ofSpec (Memref.whole main_v1) S49x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S49x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S32x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S32x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x1024x7x7 : Shape := ⟨4, ![256, 1024, 7, 7]⟩
abbrev S1024x512 : Shape := ⟨2, ![1024, 512]⟩
abbrev S1x512 : Shape := ⟨2, ![1, 512]⟩
abbrev S512x128 : Shape := ⟨2, ![512, 128]⟩
abbrev S1x128 : Shape := ⟨2, ![1, 128]⟩
abbrev S128x3 : Shape := ⟨2, ![128, 3]⟩
abbrev S1x3 : Shape := ⟨2, ![1, 3]⟩
abbrev S256x1024x49 : Shape := ⟨3, ![256, 1024, 49]⟩
abbrev S256x1024 : Shape := ⟨2, ![256, 1024]⟩
abbrev S16x256x49 : Shape := ⟨3, ![16, 256, 49]⟩
abbrev S16x256 : Shape := ⟨2, ![16, 256]⟩
abbrev S_ : Shape := ⟨0, ![]⟩
abbrev S128x128 : Shape := ⟨2, ![128, 128]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x3 : Shape := ⟨2, ![256, 3]⟩

abbrev nBuf : Space → Nat
  | .hbm => 18
  | .vmem => 12
  | .smem => 0
  | _ => 0

abbrev bufTy : (tb : Table) → Fin (tcTables nBuf tb) → BufTy
  | .hbm, ⟨0, _⟩ => ⟨S256x1024x7x7, .f32⟩
  | .hbm, ⟨1, _⟩ => ⟨S1024x512, .f32⟩
  | .hbm, ⟨2, _⟩ => ⟨S1x512, .f32⟩
  | .hbm, ⟨3, _⟩ => ⟨S512x128, .f32⟩
  | .hbm, ⟨4, _⟩ => ⟨S1x128, .f32⟩
  | .hbm, ⟨5, _⟩ => ⟨S128x3, .f32⟩
  | .hbm, ⟨6, _⟩ => ⟨S1x3, .f32⟩
  | .hbm, ⟨7, _⟩ => ⟨S256x1024x49, .f32⟩
  | .hbm, ⟨8, _⟩ => ⟨S256x1024, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S256x256, .f32⟩
  | .hbm, ⟨16, _⟩ => ⟨S256x128, .f32⟩
  | .hbm, ⟨17, _⟩ => ⟨S256x3, .f32⟩
  | .local _ .vmem, ⟨0, _⟩ => ⟨S16x256x49, .f32⟩
  | .local _ .vmem, ⟨1, _⟩ => ⟨S16x256x49, .f32⟩
  | .local _ .vmem, ⟨2, _⟩ => ⟨S16x256, .f32⟩
  | .local _ .vmem, ⟨3, _⟩ => ⟨S16x256, .f32⟩
  | .local _ .vmem, ⟨4, _⟩ => ⟨S256x1024, .f32⟩
  | .local _ .vmem, ⟨5, _⟩ => ⟨S1024x512, .f32⟩
  | .local _ .vmem, ⟨6, _⟩ => ⟨S1x512, .f32⟩
  | .local _ .vmem, ⟨7, _⟩ => ⟨S512x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S256x256, .f32⟩
  | _, _ => ⟨S256x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

class Facts₀ : Prop where
  shapeCasts_S256x1024x7x7_S256x1024x49 : S256x1024x7x7.ShapeCasts S256x1024x49
  inb_S16x256x49_S16x256x49_0_0_0 : ∀ a, (![0, 0, 0] : Fin 3 → Nat) a + S16x256x49.size a ≤ S16x256x49.size a
  h_S16x256x49 : 0 < S16x256x49.numel
  shapeCasts_S16x256x49_S16x256x49 : S16x256x49.ShapeCasts S16x256x49
  reduces_S16x256x49_S16x256 : S16x256x49.Reduces [2] S16x256
  inb_S16x256_S16x256_0_0 : ∀ a, (![0, 0] : Fin 2 → Nat) a + S16x256.size a ≤ S16x256.size a
  h_S16x256 : 0 < S16x256.numel
  pads_S128x3_S128x128_000_01250 : S128x3.Pads (![0, 0] : Fin 2 → Nat) ![0, 125] ![0, 0] S128x128
  h_S_ : 0 < S_.numel
  pads_S1x3_S1x128_000_01250 : S1x3.Pads (![0, 0] : Fin 2 → Nat) ![0, 125] ![0, 0] S1x128
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  broadcasts_S1x512_S256x512 : S1x512.Broadcasts S256x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  reduces_S256x128_S256 : S256x128.Reduces [1] S256
  shapeCasts_S256_S256x1 : S256.ShapeCasts S256x1
  broadcasts_S256x1_S256x128 : S256x1.Broadcasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  inb_S256x256_S256x128_0_0 : ∀ a, (![0, 0] : Fin 2 → Nat) a + S256x128.size a ≤ S256x256.size a
  h_S256x128 : 0 < S256x128.numel
  inb_S256x256_S256x128_0_128 : ∀ a, (![0, 128] : Fin 2 → Nat) a + S256x128.size a ≤ S256x256.size a
  slices_S256x256_S256x128_0_0 : S256x256.Slices ![0, 0] S256x128
  slices_S256x256_S256x3_0_128 : S256x256.Slices ![0, 128] S256x3
  dot_S256x1024_S1024x512_S256x512_1_0_0_1_n_n_wf : DotDims.WF S256x1024 S1024x512 S256x512 [1] [0] [0] [1] [] []
  dot_S256x512_S512x128_S256x128_1_0_0_1_n_n_wf : DotDims.WF S256x512 S512x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x49.size a ≤ S256x1024x49.size a
  hwx0_0 : ∀ i : grid0.Coords, EltTy.bits .f32 = 32 ∨ (Rect.block (s := S256x1024x49) S16x256x49.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S256x1024.size a
  hwx0_1 : ∀ i : grid0.Coords, EltTy.bits .f32 = 32 ∨ (Rect.block (s := S256x1024) S16x256.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x1024.size a
  hwx1_0 : ∀ i : grid1.Coords, EltTy.bits .f32 = 32 ∨ (Rect.block (s := S256x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v0) S16x256x49.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x1024.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S256x256.size cc1_transform_7 reads1_7 true false 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.KernelBody.lean ====
/-
  The fused kernel's region, at any float instance, as the pipeline sees it: what each window's staging buffer holds
  when the body runs at a grid point, what the body leaves there, and the pipeline's proof data built from them.

  The call hands the SAME array (the spatially-major view of the input, 49 x 256 x 1024) to its first two windows:
  window 0 reads channels 0..511 of batch rows 32t..32t+31 at point t, window 1 channels 512..1023 of the same rows.
  Both only read, so the proof data gives each of them half of that array's share; every other input window has its
  array to itself, and the two output windows (the normalised feature block and the padded logits block, rows
  32t..32t+31 of each) hold theirs outright.
-/
import proofs.«133866_g2000702716457357_pallasbulk_1135_8_alg».proof.Proof.Gen.Kernel.Launch
import proofs.«133866_g2000702716457357_pallasbulk_1135_8_alg».proof.Proof.Gen.Kernel.Skeleton
import proofs.«133866_g2000702716457357_pallasbulk_1135_8_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there: a
    window that is not fetched at a point has not moved its block index since its last fetch. One statement per
    input window (the window number must be a literal for the schedule facts to reduce). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store moves a whole staging buffer -/

abbrev rX : Rect S49x32x512 := Rect.unit (s := S49x32x512) ![0, 0, 0] S49x32x512.size inb_S49x32x512_S49x32x512_0_0_0
abbrev rW1 : Rect S1024x512 := Rect.unit (s := S1024x512) ![0, 0] S1024x512.size inb_S1024x512_S1024x512_0_0
abbrev rB1 : Rect S1x512 := Rect.unit (s := S1x512) ![0, 0] S1x512.size inb_S1x512_S1x512_0_0
abbrev rW2 : Rect S512x128 := Rect.unit (s := S512x128) ![0, 0] S512x128.size inb_S512x128_S512x128_0_0
abbrev rB2 : Rect S1x128 := Rect.unit (s := S1x128) ![0, 0] S1x128.size inb_S1x128_S1x128_0_0
abbrev rW3 : Rect S128x128 := Rect.unit (s := S128x128) ![0, 0] S128x128.size inb_S128x128_S128x128_0_0
abbrev rO : Rect S32x128 := Rect.unit (s := S32x128) ![0, 0] S32x128.size inb_S32x128_S32x128_0_0

/-! ## What the body leaves in the two output windows' buffers -/

/-- The normalised features of the 32 rows at hand: pooled, through both ReLU layers, scaled to unit length. -/
def featBlk (x0 x1 : Vec F S49x32x512 .f32) (x2 : Vec F S1024x512 .f32) (x3 : Vec F S1x512 .f32) (x4 : Vec F S512x128 .f32)
    (x5 : Vec F S1x128 .f32) : FVec F S32x128 .f32 :=
  k0_pay2 (View.ld x0 rX) (View.ld x1 rX) (View.ld x2 rW1) (View.ld x3 rB1) (View.ld x4 rW2) (View.ld x5 rB2)

/-- Window 8's staging buffer after the body: its one store, of the normalised features. -/
def out0_8 (x0 x1 : Vec F S49x32x512 .f32) (x2 : Vec F S1024x512 .f32) (x3 : Vec F S1x512 .f32) (x4 : Vec F S512x128 .f32)
    (x5 : Vec F S1x128 .f32) : Vec F S32x128 .f32 :=
  View.canon [⟨rO, featBlk x0 x1 x2 x3 x4 x5⟩]

/-- Window 9's staging buffer after the body: its one store, of the padded logits (features times the padded last
    layer, plus its padded bias). -/
def out0_9 (x0 x1 : Vec F S49x32x512 .f32) (x2 : Vec F S1024x512 .f32) (x3 : Vec F S1x512 .f32) (x4 : Vec F S512x128 .f32)
    (x5 : Vec F S1x128 .f32) (x6 : Vec F S128x128 .f32) (x7 : Vec F S1x128 .f32) : Vec F S32x128 .f32 :=
  View.canon [⟨rO, k0_pay1 (featBlk x0 x1 x2 x3 x4 x5) (k0_pay3 (View.ld x6 rW3)) (constant S32x128 .f32 0x00000000#32) (View.ld x7 rB2)⟩]

/-- A single whole-buffer store covers the buffer. -/
theorem cover0_O (p0 : Vec F S32x128 .f32) (y : S32x128.Idx) :
    ∃ pc ∈ ([⟨rO, p0⟩] : List (View.Piece (Elt F) S32x128 .f32)), y ∈ pc.1.set :=
  View.cover_of_tiled [⟨rO, p0⟩] S32x128.size (by rfl) y

/-! ## The body's triple -/

set_option maxHeartbeats 1000000 in
/-- The body on whole staging memrefs, the eight inputs' at contents `x0 … x7` and the two outputs' at anything, runs to
    a state with the inputs' as they were and the outputs' at `out0_8`, `out0_9` of the inputs. -/
theorem sound_kernel0 (c : Dev nD) (E : Set ℕ) (i : grid0.Coords) (arg1 : Memref sig .tc .vmem S49x32x512 .f32) (harg1 : arg1.IsWhole) (arg2 : Memref sig .tc .vmem S49x32x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S32x128 .f32) (harg9 : arg9.IsWhole) (arg10 : Memref sig .tc .vmem S32x128 .f32) (harg10 : arg10.IsWhole)
    (x0 x1 : Vec F S49x32x512 .f32) (x2 : Vec F S1024x512 .f32) (x3 : Vec F S1x512 .f32) (x4 : Vec F S512x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5) ∗ owns (c : Thread nD τ) arg10 fullShare (out0_9 x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_O _)
  iexists _; isplitr
  swap; · iexact H9
  ipureintro
  try dsimp only
  exact View.read_writes_eq_canon _ _ _ (cover0_O _)

/-! ## The pipeline's proof data -/

/-- The proof data on core `c`: the arrays as the region finds them; after the body at point `t` each input's buffer
    still at its block and the two outputs' at `out0_8`, `out0_9` of the input blocks; the body's invariant the plain
    one (the scoped rest and the generator register, untouched); nothing owed; the shared input array's share halved
    between its two windows, every other input held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRun.lean ====
/-
  The fused kernel's program from launch to return, at any float instance: four stretches of host operations (the
  transposed and flattened view of the input, the two padded operands of the last layer), the kernel region, and the
  slice after it. The thread state holds every host-visible buffer at a named valuation at each boundary: `W0` the
  launch contents, `W1 … W4` after each stretch, `W5` after the region, `W6` at the return.

  The region reads the flattened view through TWO windows. At its entry the view's buffer is split in two half
  shares with the same contents, one for each window; both windows only read, so at the exit the halves, still at
  the entry contents, are joined back. The region's two output arrays end at what the pipeline's write-backs leave.
-/
import proofs.«133866_g2000702716457357_pallasbulk_1135_8_alg».proof.Proof.KernelBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- At the region's entry. -/
abbrev W4 : Dev nD → Valuation τ sig (Elt F) := fun c => StableHlo.after hostOps0_3 (W3 m ρ c)
/-- The same read at the TensorCore's references (what the region's proof data take). -/
abbrev V4 : (c : Dev nD) → (b : Ref sig .tc) → Buf (Elt F) ((c : Thread nD τ).loc b) := fun c b => W4 m ρ c b
/-- At the region's exit: its two output arrays at what the write-backs leave, every other buffer as entered. -/
def W5 (c : Dev nD) : Valuation τ sig (Elt F) :=
  Function.update (Function.update (W4 m ρ c) (Proc.devRef .tc main_v4_0) ((dat0 (V4 m ρ) c).arrAt 8 cfg0.N))
    (Proc.devRef .tc main_v4_1) ((dat0 (V4 m ρ) c).arrAt 9 cfg0.N)
abbrev V5 : (c : Dev nD) → (b : Ref sig .tc) → Buf (Elt F) ((c : Thread nD τ).loc b) := fun c b => W5 m ρ c b
/-- At the return. -/
abbrev W6 : Dev nD → Valuation τ sig (Elt F) := fun c => StableHlo.after hostOps1 (W5 m ρ c)

theorem W5_v4_1 (c : Dev nD) : W5 m ρ c (Proc.devRef .tc main_v4_1) = (dat0 (V4 m ρ) c).arrAt 9 cfg0.N := by
  unfold W5; exact Function.update_self ..
theorem W5_v4_0 (c : Dev nD) : W5 m ρ c (Proc.devRef .tc main_v4_0) = (dat0 (V4 m ρ) c).arrAt 8 cfg0.N := by
  unfold W5
  rw [Function.update_of_ne (StableHlo.devRef_ne_of_ne (by decide))]
  exact Function.update_self ..
theorem W5_of_ne (c : Dev nD) (b : Ref sig .tc) (h0 : b ≠ main_v4_0) (h1 : b ≠ main_v4_1) :
    W5 m ρ c (Proc.devRef .tc b) = W4 m ρ c (Proc.devRef .tc b) := by
  unfold W5
  rw [Function.update_of_ne (StableHlo.devRef_ne_of_ne h1), Function.update_of_ne (StableHlo.devRef_ne_of_ne h0)]

/-! ### The arguments end as launched: no host operation writes one, and the region only reads them -/

/-- Every buffer some host operation or the region writes. -/
abbrev written : List (Ref sig .tc) :=
  [main_v0, main_v1, main_c, main_call0_v0, main_v2, main_c_0, main_call1_v0, main_v3, main_v4_0, main_v4_1, main_v5]

/-- A buffer nothing writes holds at the return what it held at launch: the fold walks back through the five host
    stretches and the region. -/
theorem W6_of_unwritten (c : Dev nD) (b : Ref sig .tc) (hb : ∀ r ∈ (written : List (Ref sig .tc)), b ≠ r) :
    W6 m ρ c (Proc.devRef .tc b) = m ((c : Thread nD τ).loc b) :=
  calc W6 m ρ c (Proc.devRef .tc b)
    _ = W5 m ρ c (Proc.devRef .tc b) := StableHlo.after_of_forall_not_mem (b := Proc.devRef .tc b) _ _ (List.forall_iff_forall_mem.mp (by
          simp only [hostOps1, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = W4 m ρ c (Proc.devRef .tc b) := W5_of_ne m ρ c b (hb _ (by decide)) (hb _ (by decide))
    _ = W3 m ρ c (Proc.devRef .tc b) := StableHlo.after_of_forall_not_mem (b := Proc.devRef .tc b) _ _ (List.forall_iff_forall_mem.mp (by
          simp only [hostOps0_3, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = W2 m ρ c (Proc.devRef .tc b) := StableHlo.after_of_forall_not_mem (b := Proc.devRef .tc b) _ _ (List.forall_iff_forall_mem.mp (by
          simp only [hostOps0_2, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = W1 m ρ c (Proc.devRef .tc b) := StableHlo.after_of_forall_not_mem (b := Proc.devRef .tc b) _ _ (List.forall_iff_forall_mem.mp (by
          simp only [hostOps0_1, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = W0 m ρ c (Proc.devRef .tc b) := StableHlo.after_of_forall_not_mem (b := Proc.devRef .tc b) _ _ (List.forall_iff_forall_mem.mp (by
          simp only [hostOps0, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = m ((c : Thread nD τ).loc b) := rfl

/-! ## The proof data family and the thread state -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the host-visible buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- A host-visible TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every host-visible buffer at `W6`, the generator register at some state. -/
abbrev Tₙ (c : Dev nD) : sProp 𝕄 := iprop(StableHlo.held (c : Thread nD τ) (Pipeline.ucRefs τ sig) (W6 m ρ c) ∗ ∃ r, prngReg c r)

/-! ## The region's arrays in and out of the host-visible buffers -/

/-- The nine distinct buffers behind the ten windows' arrays, listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_v2) ↦{fullShare} V main_v2) ∗ (((c : Thread nD τ).loc main_v3) ↦{fullShare} V main_v3) ∗ (((c : Thread nD τ).loc main_v4_0) ↦{fullShare} V main_v4_0) ∗ (((c : Thread nD τ).loc main_v4_1) ↦{fullShare} V main_v4_1)) := by
  unfold Pipeline.arrBufs
  exact bigSep_eq_bigSepL_of_eq [main_v1, main_arg1, main_arg2, main_arg3, main_arg4, main_v2, main_v3, main_v4_0, main_v4_1] (by decide) (by decide) _

/-- The pipeline's arrays, window by window: the flattened view twice, at the two windows' shares. -/
theorem arrays0_eq (c : Dev nD) (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop((((c : Thread nD τ).loc main_v1) ↦{dat.share 0} G 0) ∗ (((c : Thread nD τ).loc main_v1) ↦{dat.share 1} G 1) ∗ (((c : Thread nD τ).loc main_arg1) ↦{dat.share 2} G 2) ∗ (((c : Thread nD τ).loc main_arg2) ↦{dat.share 3} G 3) ∗ (((c : Thread nD τ).loc main_arg3) ↦{dat.share 4} G 4) ∗ (((c : Thread nD τ).loc main_arg4) ↦{dat.share 5} G 5) ∗ (((c : Thread nD τ).loc main_v2) ↦{dat.share 6} G 6) ∗ (((c : Thread nD τ).loc main_v3) ↦{dat.share 7} G 7) ∗ (((c : Thread nD τ).loc main_v4_0) ↦{dat.share 8} G 8) ∗ (((c : Thread nD τ).loc main_v4_1) ↦{dat.share 9} G 9)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ]

/-- ENTRY: the buffers behind the arrays, whole at the entry contents, make the pipeline's arrays at entry; the
    flattened view's points-to splits along its share into the two windows' halves. -/
theorem arrays_in (c : Dev nD) :
    (Pipeline.arrBufs (Ix := Unit) (Name := ℕ) (U := UR sig nD τ) (Lvl := ℕ) spec0 c (V4 m ρ c) : sProp 𝕄)
      ⊢ (dat0 (V4 m ρ) c).arrays ((dat0 (V4 m ρ) c).arrAt · 0) := by
  rw [arrBufs0_eq, arrays0_eq]
  iintro ⟨Hx, H1, H2, H3, H4, H5, H6, H8, H9⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [H1]; · iexact H1
  isplitl [H2]; · iexact H2
  isplitl [H3]; · iexact H3
  isplitl [H4]; · iexact H4
  isplitl [H5]; · iexact H5
  isplitl [H6]; · iexact H6
  isplitl [H8]; · iexact H8
  iexact H9

/-- EXIT: the pipeline's arrays at their final contents are the buffers behind them at the exit valuation: the two
    halves of the flattened view, both still at the entry contents, join; the inputs are as entered; the two outputs
    are where the exit valuation puts them. -/
theorem arrays_out (c : Dev nD) :
    (dat0 (V4 m ρ) c).arrays ((dat0 (V4 m ρ) c).arrAt · cfg0.N)
      ⊢ (Pipeline.arrBufs (Ix := Unit) (Name := ℕ) (U := UR sig nD τ) (Lvl := ℕ) spec0 c (V5 m ρ c) : sProp 𝕄) := by
  rw [arrBufs0_eq, arrays0_eq]
  rw [(dat0 (V4 m ρ) c).arrAt_in 0 rfl cfg0.N, (dat0 (V4 m ρ) c).arrAt_in 1 rfl cfg0.N, (dat0 (V4 m ρ) c).arrAt_in 2 rfl cfg0.N,
    (dat0 (V4 m ρ) c).arrAt_in 3 rfl cfg0.N, (dat0 (V4 m ρ) c).arrAt_in 4 rfl cfg0.N, (dat0 (V4 m ρ) c).arrAt_in 5 rfl cfg0.N,
    (dat0 (V4 m ρ) c).arrAt_in 6 rfl cfg0.N, (dat0 (V4 m ρ) c).arrAt_in 7 rfl cfg0.N]
  rw [show V5 m ρ c main_v1 = V4 m ρ c main_v1 from W5_of_ne m ρ c main_v1 (by decide) (by decide),
    show V5 m ρ c main_arg1 = V4 m ρ c main_arg1 from W5_of_ne m ρ c main_arg1 (by decide) (by decide),
    show V5 m ρ c main_arg2 = V4 m ρ c main_arg2 from W5_of_ne m ρ c main_arg2 (by decide) (by decide),
    show V5 m ρ c main_arg3 = V4 m ρ c main_arg3 from W5_of_ne m ρ c main_arg3 (by decide) (by decide),
    show V5 m ρ c main_arg4 = V4 m ρ c main_arg4 from W5_of_ne m ρ c main_arg4 (by decide) (by decide),
    show V5 m ρ c main_v2 = V4 m ρ c main_v2 from W5_of_ne m ρ c main_v2 (by decide) (by decide),
    show V5 m ρ c main_v3 = V4 m ρ c main_v3 from W5_of_ne m ρ c main_v3 (by decide) (by decide),
    show V5 m ρ c main_v4_0 = (dat0 (V4 m ρ) c).arrAt 8 cfg0.N from W5_v4_0 m ρ c,
    show V5 m ρ c main_v4_1 = (dat0 (V4 m ρ) c).arrAt 9 cfg0.N from W5_v4_1 m ρ c]
  iintro ⟨Hxl, Hxr, H1, H2, H3, H4, H5, H6, H8, H9⟩
  isplitl [Hxl Hxr]
  · iapply (pointsTo_share (PosShare.mem_left_op_right fullShare)).2
    isplitl [Hxl]; · iexact Hxl
    iexact Hxr
  isplitl [H1]; · iexact H1
  isplitl [H2]; · iexact H2
  isplitl [H3]; · iexact H3
  isplitl [H4]; · iexact H4
  isplitl [H5]; · iexact H5
  isplitl [H6]; · iexact H6
  isplitl [H8]; · iexact H8
  iexact H9

/-! ## The region as a segment -/

-- from here on the exit valuation is used only through `W5_v4_0`, `W5_v4_1` and `W5_of_ne`
attribute [irreducible] W5
-- and the arrays' contents after the write-backs only through `Dat.arrAt_in` and the value lemmas: never by unrolling the fold over the eight grid points
attribute [local irreducible] Pipeline.Dat.arrAt

/-- Off the two output arrays the exit valuation is the entry valuation: what bypasses the region is unchanged. -/
theorem rest_out (c : Dev nD) :
    (Pipeline.unscopedRest (Ix := Unit) (Name := ℕ) (U := UR sig nD τ) (Lvl := ℕ) spec0 c (V4 m ρ c) : sProp 𝕄)
      = Pipeline.unscopedRest (Ix := Unit) (Name := ℕ) (U := UR sig nD τ) (Lvl := ℕ) spec0 c (V5 m ρ c) := by
  unfold Pipeline.unscopedRest
  refine bigSep_congr fun b hb => ?_
  have hb' := (Finset.mem_sdiff.mp hb).2
  have h0 : b ≠ main_v4_0 := fun e => hb' (Finset.mem_image.mpr ⟨8, Finset.mem_univ _, e ▸ rfl⟩)
  have h1 : b ≠ main_v4_1 := fun e => hb' (Finset.mem_image.mpr ⟨9, Finset.mem_univ _, e ▸ rfl⟩)
  rw [show V5 m ρ c b = V4 m ρ c b from W5_of_ne m ρ c b h0 h1]

/-- A core's host-visible buffers at contents `V` are the buffers behind the windows' arrays and the rest. -/
theorem bufs_split (c : Dev nD) (V : (b : Ref sig .tc) → Buf (Elt F) ((c : Thread nD τ).loc b)) :
    (unscopedBufs c V : sProp 𝕄)
      = iprop((Pipeline.arrBufs (Ix := Unit) (Name := ℕ) (U := UR sig nD τ) (Lvl := ℕ) spec0 c V : sProp 𝕄)
          ∗ Pipeline.unscopedRest (Ix := Unit) (Name := ℕ) (U := UR sig nD τ) (Lvl := ℕ) spec0 c V) :=
  Pipeline.unscopedBufs_split₀ (Pipeline.pin (pcfgs (F := F)) adm) 0 winFacts₀0.arr_unscoped c V

/-- ENTRY, whole: every host-visible buffer at `W4` is the pipeline's arrays at entry and what bypasses the region. -/
theorem entry_split (c : Dev nD) :
    (StableHlo.held (c : Thread nD τ) (Pipeline.ucRefs τ sig) (W4 m ρ c) : sProp 𝕄)
      ⊢ iprop((pdats m ρ 0 c).arrays ((pdats m ρ 0 c).arrAt · 0)
        ∗ Pipeline.unscopedRest (Ix := Unit) (Name := ℕ) (U := UR sig nD τ) (Lvl := ℕ) spec0 c (V4 m ρ c)) := by
  rw [← Pipeline.unscopedBufs_held, bufs_split c (V4 m ρ c)]
  exact sep_mono (arrays_in m ρ c) .rfl

/-- EXIT, whole: the pipeline's arrays at their final contents and what bypassed the region are every host-visible
    buffer at `W5`. -/
theorem exit_join (c : Dev nD) :
    iprop((pdats m ρ 0 c).arrays ((pdats m ρ 0 c).arrAt · cfg0.N)
        ∗ Pipeline.unscopedRest (Ix := Unit) (Name := ℕ) (U := UR sig nD τ) (Lvl := ℕ) spec0 c (V4 m ρ c))
      ⊢ (StableHlo.held (c : Thread nD τ) (Pipeline.ucRefs τ sig) (W5 m ρ c) : sProp 𝕄) := by
  rw [← Pipeline.unscopedBufs_held, bufs_split c (V5 m ρ c), rest_out m ρ c]
  exact sep_mono (arrays_out m ρ c) .rfl

set_option backward.isDefEq.respectTransparency.types false in
/-- The region over the thread state: entered from every host-visible buffer at `W4`, left at `W5`. Its arrays
    come out of the host-visible buffers at the entry (`arrays_in`) and go back at the exit (`arrays_out`); the
    generator register goes into the body's invariant and comes back; nothing is owed; the kernel has no semaphore
    of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each host-visible buffer holds what the fold `W6` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_arg0 (by decide))).trans (W6_of_unwritten m ρ c main_arg0 (by decide)),
       (h c _ (mem_uc main_arg1 (by decide))).trans (W6_of_unwritten m ρ c main_arg1 (by decide)),
       (h c _ (mem_uc main_arg2 (by decide))).trans (W6_of_unwritten m ρ c main_arg2 (by decide)),
       (h c _ (mem_uc main_arg3 (by decide))).trans (W6_of_unwritten m ρ c main_arg3 (by decide)),
       (h c _ (mem_uc main_arg4 (by decide))).trans (W6_of_unwritten m ρ c main_arg4 (by decide)),
       (h c _ (mem_uc main_arg5 (by decide))).trans (W6_of_unwritten m ρ c main_arg5 (by decide)),
       (h c _ (mem_uc main_arg6 (by decide))).trans (W6_of_unwritten m ρ c main_arg6 (by decide))⟩)
    (run_all m ρ)

end Cert.Kernel.Hand

end
-- ==== Proof.KBody.lean ====
/-
  The fused kernel's region, at any float instance, as the pipeline sees it: what each window's staging buffer holds
  when the body runs at a grid point, what the body leaves there, and the pipeline's proof data built from them.

  The call hands the SAME array (the spatially-major view of the input, 49 x 256 x 1024) to its first two windows:
  window 0 reads channels 0..511 of batch rows 32t..32t+31 at point t, window 1 channels 512..1023 of the same rows.
  Both only read, so the proof data gives each of them half of that array's share; every other input window has its
  array to itself, and the two output windows (the normalised feature block and the padded logits block, rows
  32t..32t+31 of each) hold theirs outright.
-/
import proofs.«133866_g2000702716457357_pallasbulk_1135_8_alg».proof.Proof.Gen.KernelIdeal.Launch
import proofs.«133866_g2000702716457357_pallasbulk_1135_8_alg».proof.Proof.Gen.KernelIdeal.Skeleton
import proofs.«133866_g2000702716457357_pallasbulk_1135_8_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there: a
    window that is not fetched at a point has not moved its block index since its last fetch. One statement per
    input window (the window number must be a literal for the schedule facts to reduce). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store moves a whole staging buffer -/

abbrev rX : Rect S49x32x512 := Rect.unit (s := S49x32x512) ![0, 0, 0] S49x32x512.size inb_S49x32x512_S49x32x512_0_0_0
abbrev rW1 : Rect S1024x512 := Rect.unit (s := S1024x512) ![0, 0] S1024x512.size inb_S1024x512_S1024x512_0_0
abbrev rB1 : Rect S1x512 := Rect.unit (s := S1x512) ![0, 0] S1x512.size inb_S1x512_S1x512_0_0
abbrev rW2 : Rect S512x128 := Rect.unit (s := S512x128) ![0, 0] S512x128.size inb_S512x128_S512x128_0_0
abbrev rB2 : Rect S1x128 := Rect.unit (s := S1x128) ![0, 0] S1x128.size inb_S1x128_S1x128_0_0
abbrev rW3 : Rect S128x128 := Rect.unit (s := S128x128) ![0, 0] S128x128.size inb_S128x128_S128x128_0_0
abbrev rO : Rect S32x128 := Rect.unit (s := S32x128) ![0, 0] S32x128.size inb_S32x128_S32x128_0_0

/-! ## What the body leaves in the two output windows' buffers -/

/-- The normalised features of the 32 rows at hand: pooled, through both ReLU layers, scaled to unit length. -/
def featBlk (x0 x1 : Vec F S49x32x512 .f32) (x2 : Vec F S1024x512 .f32) (x3 : Vec F S1x512 .f32) (x4 : Vec F S512x128 .f32)
    (x5 : Vec F S1x128 .f32) : FVec F S32x128 .f32 :=
  k0_pay2 (View.ld x0 rX) (View.ld x1 rX) (View.ld x2 rW1) (View.ld x3 rB1) (View.ld x4 rW2) (View.ld x5 rB2)

/-- Window 8's staging buffer after the body: its one store, of the normalised features. -/
def out0_8 (x0 x1 : Vec F S49x32x512 .f32) (x2 : Vec F S1024x512 .f32) (x3 : Vec F S1x512 .f32) (x4 : Vec F S512x128 .f32)
    (x5 : Vec F S1x128 .f32) : Vec F S32x128 .f32 :=
  View.canon [⟨rO, featBlk x0 x1 x2 x3 x4 x5⟩]

/-- Window 9's staging buffer after the body: its one store, of the padded logits (features times the padded last
    layer, plus its padded bias). -/
def out0_9 (x0 x1 : Vec F S49x32x512 .f32) (x2 : Vec F S1024x512 .f32) (x3 : Vec F S1x512 .f32) (x4 : Vec F S512x128 .f32)
    (x5 : Vec F S1x128 .f32) (x6 : Vec F S128x128 .f32) (x7 : Vec F S1x128 .f32) : Vec F S32x128 .f32 :=
  View.canon [⟨rO, k0_pay1 (featBlk x0 x1 x2 x3 x4 x5) (k0_pay3 (View.ld x6 rW3)) (constant S32x128 .f32 0x00000000#32) (View.ld x7 rB2)⟩]

/-- A single whole-buffer store covers the buffer. -/
theorem cover0_O (p0 : Vec F S32x128 .f32) (y : S32x128.Idx) :
    ∃ pc ∈ ([⟨rO, p0⟩] : List (View.Piece (Elt F) S32x128 .f32)), y ∈ pc.1.set :=
  View.cover_of_tiled [⟨rO, p0⟩] S32x128.size (by rfl) y

/-! ## The body's triple -/

set_option maxHeartbeats 1000000 in
/-- The body on whole staging memrefs, the eight inputs' at contents `x0 … x7` and the two outputs' at anything, runs to
    a state with the inputs' as they were and the outputs' at `out0_8`, `out0_9` of the inputs. -/
theorem sound_kernel0 (c : Dev nD) (E : Set ℕ) (i : grid0.Coords) (arg1 : Memref sig .tc .vmem S49x32x512 .f32) (harg1 : arg1.IsWhole) (arg2 : Memref sig .tc .vmem S49x32x512 .f32) (harg2 : arg2.IsWhole) (arg3 : Memref sig .tc .vmem S1024x512 .f32) (harg3 : arg3.IsWhole) (arg4 : Memref sig .tc .vmem S1x512 .f32) (harg4 : arg4.IsWhole) (arg5 : Memref sig .tc .vmem S512x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S32x128 .f32) (harg9 : arg9.IsWhole) (arg10 : Memref sig .tc .vmem S32x128 .f32) (harg10 : arg10.IsWhole)
    (x0 x1 : Vec F S49x32x512 .f32) (x2 : Vec F S1024x512 .f32) (x3 : Vec F S1x512 .f32) (x4 : Vec F S512x128 .f32) (x5 : Vec F S1x128 .f32) (x6 : Vec F S128x128 .f32) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5) ∗ owns (c : Thread nD τ) arg10 fullShare (out0_9 x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover0_O _)
  iexists _; isplitr
  swap; · iexact H9
  ipureintro
  try dsimp only
  exact View.read_writes_eq_canon _ _ _ (cover0_O _)

/-! ## The pipeline's proof data -/

/-- The proof data on core `c`: the arrays as the region finds them; after the body at point `t` each input's buffer
    still at its block and the two outputs' at `out0_8`, `out0_9` of the input blocks; the body's invariant the plain
    one (the scoped rest and the generator register, untouched); nothing owed; the shared input array's share halved
    between its two windows, every other input held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KRun.lean ====
/-
  The fused kernel's program from launch to return, at any float instance: four stretches of host operations (the
  transposed and flattened view of the input, the two padded operands of the last layer), the kernel region, and the
  slice after it. The thread state holds every host-visible buffer at a named valuation at each boundary: `W0` the
  launch contents, `W1 … W4` after each stretch, `W5` after the region, `W6` at the return.

  The region reads the flattened view through TWO windows. At its entry the view's buffer is split in two half
  shares with the same contents, one for each window; both windows only read, so at the exit the halves, still at
  the entry contents, are joined back. The region's two output arrays end at what the pipeline's write-backs leave.
-/
import proofs.«133866_g2000702716457357_pallasbulk_1135_8_alg».proof.Proof.KBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- At the region's entry. -/
abbrev W4 : Dev nD → Valuation τ sig (Elt F) := fun c => StableHlo.after hostOps0_3 (W3 m ρ c)
/-- The same read at the TensorCore's references (what the region's proof data take). -/
abbrev V4 : (c : Dev nD) → (b : Ref sig .tc) → Buf (Elt F) ((c : Thread nD τ).loc b) := fun c b => W4 m ρ c b
/-- At the region's exit: its two output arrays at what the write-backs leave, every other buffer as entered. -/
def W5 (c : Dev nD) : Valuation τ sig (Elt F) :=
  Function.update (Function.update (W4 m ρ c) (Proc.devRef .tc main_v4_0) ((dat0 (V4 m ρ) c).arrAt 8 cfg0.N))
    (Proc.devRef .tc main_v4_1) ((dat0 (V4 m ρ) c).arrAt 9 cfg0.N)
abbrev V5 : (c : Dev nD) → (b : Ref sig .tc) → Buf (Elt F) ((c : Thread nD τ).loc b) := fun c b => W5 m ρ c b
/-- At the return. -/
abbrev W6 : Dev nD → Valuation τ sig (Elt F) := fun c => StableHlo.after hostOps1 (W5 m ρ c)

theorem W5_v4_1 (c : Dev nD) : W5 m ρ c (Proc.devRef .tc main_v4_1) = (dat0 (V4 m ρ) c).arrAt 9 cfg0.N := by
  unfold W5; exact Function.update_self ..
theorem W5_v4_0 (c : Dev nD) : W5 m ρ c (Proc.devRef .tc main_v4_0) = (dat0 (V4 m ρ) c).arrAt 8 cfg0.N := by
  unfold W5
  rw [Function.update_of_ne (StableHlo.devRef_ne_of_ne (by decide))]
  exact Function.update_self ..
theorem W5_of_ne (c : Dev nD) (b : Ref sig .tc) (h0 : b ≠ main_v4_0) (h1 : b ≠ main_v4_1) :
    W5 m ρ c (Proc.devRef .tc b) = W4 m ρ c (Proc.devRef .tc b) := by
  unfold W5
  rw [Function.update_of_ne (StableHlo.devRef_ne_of_ne h1), Function.update_of_ne (StableHlo.devRef_ne_of_ne h0)]

/-! ### The arguments end as launched: no host operation writes one, and the region only reads them -/

/-- Every buffer some host operation or the region writes. -/
abbrev written : List (Ref sig .tc) :=
  [main_v0, main_v1, main_c, main_call0_v0, main_v2, main_c_0, main_call1_v0, main_v3, main_v4_0, main_v4_1, main_v5]

/-- A buffer nothing writes holds at the return what it held at launch: the fold walks back through the five host
    stretches and the region. -/
theorem W6_of_unwritten (c : Dev nD) (b : Ref sig .tc) (hb : ∀ r ∈ (written : List (Ref sig .tc)), b ≠ r) :
    W6 m ρ c (Proc.devRef .tc b) = m ((c : Thread nD τ).loc b) :=
  calc W6 m ρ c (Proc.devRef .tc b)
    _ = W5 m ρ c (Proc.devRef .tc b) := StableHlo.after_of_forall_not_mem (b := Proc.devRef .tc b) _ _ (List.forall_iff_forall_mem.mp (by
          simp only [hostOps1, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = W4 m ρ c (Proc.devRef .tc b) := W5_of_ne m ρ c b (hb _ (by decide)) (hb _ (by decide))
    _ = W3 m ρ c (Proc.devRef .tc b) := StableHlo.after_of_forall_not_mem (b := Proc.devRef .tc b) _ _ (List.forall_iff_forall_mem.mp (by
          simp only [hostOps0_3, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = W2 m ρ c (Proc.devRef .tc b) := StableHlo.after_of_forall_not_mem (b := Proc.devRef .tc b) _ _ (List.forall_iff_forall_mem.mp (by
          simp only [hostOps0_2, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = W1 m ρ c (Proc.devRef .tc b) := StableHlo.after_of_forall_not_mem (b := Proc.devRef .tc b) _ _ (List.forall_iff_forall_mem.mp (by
          simp only [hostOps0_1, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = W0 m ρ c (Proc.devRef .tc b) := StableHlo.after_of_forall_not_mem (b := Proc.devRef .tc b) _ _ (List.forall_iff_forall_mem.mp (by
          simp only [hostOps0, List.Forall, StableHlo.nullary_writes, StableHlo.unary_writes, StableHlo.binary_writes, StableHlo.reshape_writes, Finset.mem_singleton]
          repeat' apply And.intro
          all_goals first
            | exact StableHlo.devRef_ne_of_ne (hb _ (by decide))
            | exact StableHlo.devRef_ne_of_ne (Ne.symm (hb _ (by decide)))))
    _ = m ((c : Thread nD τ).loc b) := rfl

/-! ## The proof data family and the thread state -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A host stretch as a segment over the host-visible buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- A host-visible TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every host-visible buffer at `W6`, the generator register at some state. -/
abbrev Tₙ (c : Dev nD) : sProp 𝕄 := iprop(StableHlo.held (c : Thread nD τ) (Pipeline.ucRefs τ sig) (W6 m ρ c) ∗ ∃ r, prngReg c r)

/-! ## The region's arrays in and out of the host-visible buffers -/

/-- The nine distinct buffers behind the ten windows' arrays, listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v1) ↦{fullShare} V main_v1) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_arg4) ↦{fullShare} V main_arg4) ∗ (((c : Thread nD τ).loc main_v2) ↦{fullShare} V main_v2) ∗ (((c : Thread nD τ).loc main_v3) ↦{fullShare} V main_v3) ∗ (((c : Thread nD τ).loc main_v4_0) ↦{fullShare} V main_v4_0) ∗ (((c : Thread nD τ).loc main_v4_1) ↦{fullShare} V main_v4_1)) := by
  unfold Pipeline.arrBufs
  exact bigSep_eq_bigSepL_of_eq [main_v1, main_arg1, main_arg2, main_arg3, main_arg4, main_v2, main_v3, main_v4_0, main_v4_1] (by decide) (by decide) _

/-- The pipeline's arrays, window by window: the flattened view twice, at the two windows' shares. -/
theorem arrays0_eq (c : Dev nD) (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop((((c : Thread nD τ).loc main_v1) ↦{dat.share 0} G 0) ∗ (((c : Thread nD τ).loc main_v1) ↦{dat.share 1} G 1) ∗ (((c : Thread nD τ).loc main_arg1) ↦{dat.share 2} G 2) ∗ (((c : Thread nD τ).loc main_arg2) ↦{dat.share 3} G 3) ∗ (((c : Thread nD τ).loc main_arg3) ↦{dat.share 4} G 4) ∗ (((c : Thread nD τ).loc main_arg4) ↦{dat.share 5} G 5) ∗ (((c : Thread nD τ).loc main_v2) ↦{dat.share 6} G 6) ∗ (((c : Thread nD τ).loc main_v3) ↦{dat.share 7} G 7) ∗ (((c : Thread nD τ).loc main_v4_0) ↦{dat.share 8} G 8) ∗ (((c : Thread nD τ).loc main_v4_1) ↦{dat.share 9} G 9)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ]

/-- ENTRY: the buffers behind the arrays, whole at the entry contents, make the pipeline's arrays at entry; the
    flattened view's points-to splits along its share into the two windows' halves. -/
theorem arrays_in (c : Dev nD) :
    (Pipeline.arrBufs (Ix := Unit) (Name := ℕ) (U := UR sig nD τ) (Lvl := ℕ) spec0 c (V4 m ρ c) : sProp 𝕄)
      ⊢ (dat0 (V4 m ρ) c).arrays ((dat0 (V4 m ρ) c).arrAt · 0) := by
  rw [arrBufs0_eq, arrays0_eq]
  iintro ⟨Hx, H1, H2, H3, H4, H5, H6, H8, H9⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [H1]; · iexact H1
  isplitl [H2]; · iexact H2
  isplitl [H3]; · iexact H3
  isplitl [H4]; · iexact H4
  isplitl [H5]; · iexact H5
  isplitl [H6]; · iexact H6
  isplitl [H8]; · iexact H8
  iexact H9

/-- EXIT: the pipeline's arrays at their final contents are the buffers behind them at the exit valuation: the two
    halves of the flattened view, both still at the entry contents, join; the inputs are as entered; the two outputs
    are where the exit valuation puts them. -/
theorem arrays_out (c : Dev nD) :
    (dat0 (V4 m ρ) c).arrays ((dat0 (V4 m ρ) c).arrAt · cfg0.N)
      ⊢ (Pipeline.arrBufs (Ix := Unit) (Name := ℕ) (U := UR sig nD τ) (Lvl := ℕ) spec0 c (V5 m ρ c) : sProp 𝕄) := by
  rw [arrBufs0_eq, arrays0_eq]
  rw [(dat0 (V4 m ρ) c).arrAt_in 0 rfl cfg0.N, (dat0 (V4 m ρ) c).arrAt_in 1 rfl cfg0.N, (dat0 (V4 m ρ) c).arrAt_in 2 rfl cfg0.N,
    (dat0 (V4 m ρ) c).arrAt_in 3 rfl cfg0.N, (dat0 (V4 m ρ) c).arrAt_in 4 rfl cfg0.N, (dat0 (V4 m ρ) c).arrAt_in 5 rfl cfg0.N,
    (dat0 (V4 m ρ) c).arrAt_in 6 rfl cfg0.N, (dat0 (V4 m ρ) c).arrAt_in 7 rfl cfg0.N]
  rw [show V5 m ρ c main_v1 = V4 m ρ c main_v1 from W5_of_ne m ρ c main_v1 (by decide) (by decide),
    show V5 m ρ c main_arg1 = V4 m ρ c main_arg1 from W5_of_ne m ρ c main_arg1 (by decide) (by decide),
    show V5 m ρ c main_arg2 = V4 m ρ c main_arg2 from W5_of_ne m ρ c main_arg2 (by decide) (by decide),
    show V5 m ρ c main_arg3 = V4 m ρ c main_arg3 from W5_of_ne m ρ c main_arg3 (by decide) (by decide),
    show V5 m ρ c main_arg4 = V4 m ρ c main_arg4 from W5_of_ne m ρ c main_arg4 (by decide) (by decide),
    show V5 m ρ c main_v2 = V4 m ρ c main_v2 from W5_of_ne m ρ c main_v2 (by decide) (by decide),
    show V5 m ρ c main_v3 = V4 m ρ c main_v3 from W5_of_ne m ρ c main_v3 (by decide) (by decide),
    show V5 m ρ c main_v4_0 = (dat0 (V4 m ρ) c).arrAt 8 cfg0.N from W5_v4_0 m ρ c,
    show V5 m ρ c main_v4_1 = (dat0 (V4 m ρ) c).arrAt 9 cfg0.N from W5_v4_1 m ρ c]
  iintro ⟨Hxl, Hxr, H1, H2, H3, H4, H5, H6, H8, H9⟩
  isplitl [Hxl Hxr]
  · iapply (pointsTo_share (PosShare.mem_left_op_right fullShare)).2
    isplitl [Hxl]; · iexact Hxl
    iexact Hxr
  isplitl [H1]; · iexact H1
  isplitl [H2]; · iexact H2
  isplitl [H3]; · iexact H3
  isplitl [H4]; · iexact H4
  isplitl [H5]; · iexact H5
  isplitl [H6]; · iexact H6
  isplitl [H8]; · iexact H8
  iexact H9

/-! ## The region as a segment -/

-- from here on the exit valuation is used only through `W5_v4_0`, `W5_v4_1` and `W5_of_ne`
attribute [irreducible] W5
-- and the arrays' contents after the write-backs only through `Dat.arrAt_in` and the value lemmas: never by unrolling the fold over the eight grid points
attribute [local irreducible] Pipeline.Dat.arrAt

/-- Off the two output arrays the exit valuation is the entry valuation: what bypasses the region is unchanged. -/
theorem rest_out (c : Dev nD) :
    (Pipeline.unscopedRest (Ix := Unit) (Name := ℕ) (U := UR sig nD τ) (Lvl := ℕ) spec0 c (V4 m ρ c) : sProp 𝕄)
      = Pipeline.unscopedRest (Ix := Unit) (Name := ℕ) (U := UR sig nD τ) (Lvl := ℕ) spec0 c (V5 m ρ c) := by
  unfold Pipeline.unscopedRest
  refine bigSep_congr fun b hb => ?_
  have hb' := (Finset.mem_sdiff.mp hb).2
  have h0 : b ≠ main_v4_0 := fun e => hb' (Finset.mem_image.mpr ⟨8, Finset.mem_univ _, e ▸ rfl⟩)
  have h1 : b ≠ main_v4_1 := fun e => hb' (Finset.mem_image.mpr ⟨9, Finset.mem_univ _, e ▸ rfl⟩)
  rw [show V5 m ρ c b = V4 m ρ c b from W5_of_ne m ρ c b h0 h1]

/-- A core's host-visible buffers at contents `V` are the buffers behind the windows' arrays and the rest. -/
theorem bufs_split (c : Dev nD) (V : (b : Ref sig .tc) → Buf (Elt F) ((c : Thread nD τ).loc b)) :
    (unscopedBufs c V : sProp 𝕄)
      = iprop((Pipeline.arrBufs (Ix := Unit) (Name := ℕ) (U := UR sig nD τ) (Lvl := ℕ) spec0 c V : sProp 𝕄)
          ∗ Pipeline.unscopedRest (Ix := Unit) (Name := ℕ) (U := UR sig nD τ) (Lvl := ℕ) spec0 c V) :=
  Pipeline.unscopedBufs_split₀ (Pipeline.pin (pcfgs (F := F)) adm) 0 winFacts₀0.arr_unscoped c V

/-- ENTRY, whole: every host-visible buffer at `W4` is the pipeline's arrays at entry and what bypasses the region. -/
theorem entry_split (c : Dev nD) :
    (StableHlo.held (c : Thread nD τ) (Pipeline.ucRefs τ sig) (W4 m ρ c) : sProp 𝕄)
      ⊢ iprop((pdats m ρ 0 c).arrays ((pdats m ρ 0 c).arrAt · 0)
        ∗ Pipeline.unscopedRest (Ix := Unit) (Name := ℕ) (U := UR sig nD τ) (Lvl := ℕ) spec0 c (V4 m ρ c)) := by
  rw [← Pipeline.unscopedBufs_held, bufs_split c (V4 m ρ c)]
  exact sep_mono (arrays_in m ρ c) .rfl

/-- EXIT, whole: the pipeline's arrays at their final contents and what bypassed the region are every host-visible
    buffer at `W5`. -/
theorem exit_join (c : Dev nD) :
    iprop((pdats m ρ 0 c).arrays ((pdats m ρ 0 c).arrAt · cfg0.N)
        ∗ Pipeline.unscopedRest (Ix := Unit) (Name := ℕ) (U := UR sig nD τ) (Lvl := ℕ) spec0 c (V4 m ρ c))
      ⊢ (StableHlo.held (c : Thread nD τ) (Pipeline.ucRefs τ sig) (W5 m ρ c) : sProp 𝕄) := by
  rw [← Pipeline.unscopedBufs_held, bufs_split c (V5 m ρ c), rest_out m ρ c]
  exact sep_mono (arrays_out m ρ c) .rfl

set_option backward.isDefEq.respectTransparency.types false in
/-- The region over the thread state: entered from every host-visible buffer at `W4`, left at `W5`. Its arrays
    come out of the host-visible buffers at the entry (`arrays_in`) and go back at the exit (`arrays_out`); the
    generator register goes into the body's invariant and comes back; nothing is owed; the kernel has no semaphore
    of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each host-visible buffer holds what the fold `W6` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_arg0 (by decide))).trans (W6_of_unwritten m ρ c main_arg0 (by decide)),
       (h c _ (mem_uc main_arg1 (by decide))).trans (W6_of_unwritten m ρ c main_arg1 (by decide)),
       (h c _ (mem_uc main_arg2 (by decide))).trans (W6_of_unwritten m ρ c main_arg2 (by decide)),
       (h c _ (mem_uc main_arg3 (by decide))).trans (W6_of_unwritten m ρ c main_arg3 (by decide)),
       (h c _ (mem_uc main_arg4 (by decide))).trans (W6_of_unwritten m ρ c main_arg4 (by decide)),
       (h c _ (mem_uc main_arg5 (by decide))).trans (W6_of_unwritten m ρ c main_arg5 (by decide)),
       (h c _ (mem_uc main_arg6 (by decide))).trans (W6_of_unwritten m ρ c main_arg6 (by decide))⟩)
    (run_all m ρ)

end Cert.KernelIdeal.Hand

end
-- ==== Proof.Spec.lean ====
/-
  The classifier head as plain mathematics over the extended reals, one batch row at a time.

  A row of the input holds, for each of 1024 channels, 49 spatial values. The head pools each channel (the sum of its
  49 values times the shared single-precision constant nearest 1/49), applies two affine layers each followed by a
  ReLU (1024 -> 512 -> 128), scales the 128-vector by the reciprocal square root of its squared length floored at the
  shared constant nearest 1e-24, and applies a last affine layer 128 -> 128 (the 3 real classes padded with zero
  columns). Both programs compute exactly these functions of a row; they differ in how rows are grouped into blocks
  and in the order the 49 spatial values are laid out, and a finite sum does not depend on either.
-/
import Idealize.ShloMosaic.PureOps.Ideal
import Idealize.ShloMosaic.PureOps.Ideal.Laws

noncomputable section

namespace Cert.Spec

open Idealize.ShloMosaic

/-- The shared literal nearest 1/49, read exactly. -/
def inv49 : EReal := Ideal.ofBits .f32 0x3CA72F05#32
/-- The shared literal nearest 1e-24, read exactly. -/
def eps : EReal := Ideal.ofBits .f32 0x179ABE15#32
/-- The zero literal, as both programs spell it. -/
def zero : EReal := Ideal.ofBits .f32 0x00000000#32

/-- Global average pooling of one row: channel `c`'s 49 spatial values summed, times the constant. -/
def pool (xr : Fin 1024 → Fin 49 → EReal) (c : Fin 1024) : EReal := (∑ s : Fin 49, xr c s) * inv49

/-- An affine layer followed by a ReLU, on one row. -/
def layer {n k : Nat} (v : Fin n → EReal) (w : Fin n → Fin k → EReal) (b : Fin k → EReal) (j : Fin k) : EReal :=
  max ((∑ i : Fin n, v i * w i j) + b j) zero

/-- A row scaled to unit length, the squared length floored at `eps`. -/
def unit (h : Fin 128 → EReal) (j : Fin 128) : EReal :=
  h j * Ideal.rsqrt (max (∑ i : Fin 128, h i * h i) eps)

/-- The last affine layer, on one row. -/
def affine {n k : Nat} (v : Fin n → EReal) (w : Fin n → Fin k → EReal) (b : Fin k → EReal) (j : Fin k) : EReal :=
  (∑ i : Fin n, v i * w i j) + b j

/-- The normalised feature of a row. -/
def feature (xr : Fin 1024 → Fin 49 → EReal) (w1 : Fin 1024 → Fin 512 → EReal) (b1 : Fin 512 → EReal)
    (w2 : Fin 512 → Fin 128 → EReal) (b2 : Fin 128 → EReal) : Fin 128 → EReal :=
  unit (layer (layer (pool xr) w1 b1) w2 b2)

/-- The padded logits of a row. -/
def logits (xr : Fin 1024 → Fin 49 → EReal) (w1 : Fin 1024 → Fin 512 → EReal) (b1 : Fin 512 → EReal)
    (w2 : Fin 512 → Fin 128 → EReal) (b2 : Fin 128 → EReal) (w3 : Fin 128 → Fin 128 → EReal) (b3 : Fin 128 → EReal) :
    Fin 128 → EReal :=
  affine (feature xr w1 b1 w2 b2) w3 b3

end Cert.Spec

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KPay.lean ====
/-
  The fused kernel's two stored values read at one element, at the exact (extended-real) reading: element (p, q) of
  the feature block is the normalised feature of the block's row p, and element (p, q) of the logits block its padded
  logits (Proof/Spec.lean). Row p of the block's input is channel k < 512 from the first half-block and channel
  k >= 512 from the second (the kernel concatenates the two pooled halves along channels).
-/
import proofs.«133866_g2000702716457357_pallasbulk_1135_8_alg».proof.Proof.KBody
import proofs.«133866_g2000702716457357_pallasbulk_1135_8_alg».proof.Proof.Spec
import proofs.«133866_g2000702716457357_pallasbulk_1135_8_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen
open scoped BigOperators

/-- Row `p` of a grid point's input, from its two channel halves: channel `k`, spatial position `s`. -/
def halves (x0 x1 : Vec Ideal S49x32x512 .f32) (p : Fin 32) : Fin 1024 → Fin 49 → EReal :=
  fun k s => if h : k.val < 512 then x0 (ix3 s p ⟨k.val, h⟩) else x1 (ix3 s p ⟨k.val - 512, by omega⟩)

namespace KPay

/-! ## The three contractions read at an index

Each operand index of a contraction, axis by axis, and then the contraction into the zero accumulator as a sum over
its one inner axis. -/

theorem lhs_1_0 (i : S32x512.Idx) (q : dot_S32x1024_S1024x512_S32x512_1_0_0_1_n_n.contr.Idx) :
    (dot_S32x1024_S1024x512_S32x512_1_0_0_1_n_n.lhsIdx i q 0).val = (i 0).val := by
  unfold DotDims.lhsIdx
  rw [dif_neg (show ¬(0 : Fin S32x1024.rank) ∈ dot_S32x1024_S1024x512_S32x512_1_0_0_1_n_n.lhsBatch by decide),
    dif_pos (show (0 : Fin S32x1024.rank) ∈ dot_S32x1024_S1024x512_S32x512_1_0_0_1_n_n.lhsNonContracting by decide)]
  rfl
theorem lhs_1_1 (i : S32x512.Idx) (q : dot_S32x1024_S1024x512_S32x512_1_0_0_1_n_n.contr.Idx) :
    (dot_S32x1024_S1024x512_S32x512_1_0_0_1_n_n.lhsIdx i q 1).val = (q ⟨0, by decide⟩).val :=
  dot_S32x1024_S1024x512_S32x512_1_0_0_1_n_n.lhsIdx_val_of_single rfl i q
theorem rhs_1_0 (i : S32x512.Idx) (q : dot_S32x1024_S1024x512_S32x512_1_0_0_1_n_n.contr.Idx) :
    (dot_S32x1024_S1024x512_S32x512_1_0_0_1_n_n.rhsIdx i q 0).val = (q ⟨0, by decide⟩).val :=
  dot_S32x1024_S1024x512_S32x512_1_0_0_1_n_n.rhsIdx_val_of_single rfl i q
theorem rhs_1_1 (i : S32x512.Idx) (q : dot_S32x1024_S1024x512_S32x512_1_0_0_1_n_n.contr.Idx) :
    (dot_S32x1024_S1024x512_S32x512_1_0_0_1_n_n.rhsIdx i q 1).val = (i 1).val := by
  unfold DotDims.rhsIdx
  rw [dif_neg (show ¬(1 : Fin S1024x512.rank) ∈ dot_S32x1024_S1024x512_S32x512_1_0_0_1_n_n.rhsBatch by decide),
    dif_pos (show (1 : Fin S1024x512.rank) ∈ dot_S32x1024_S1024x512_S32x512_1_0_0_1_n_n.rhsNonContracting by decide)]
  rfl

/-- This contraction into the zero accumulator, read at (p, j): the sum over its 1024 inner positions. -/
theorem mm1_apply (v : FVec Ideal S32x1024 .f32) (w : FVec Ideal S1024x512 .f32) (p : Fin 32) (j : Fin 512) :
    matmul dot_S32x1024_S1024x512_S32x512_1_0_0_1_n_n none v w (constant S32x512 .f32 0x00000000#32) (ix2 p j)
      = ∑ k : Fin 1024, v (ix2 p k) * w (ix2 k j) := by
  simp only [matmul]
  rw [Ideal.matmul_constant_zero_apply, ← Equiv.sum_comp (contrEquiv1 dot_S32x1024_S1024x512_S32x512_1_0_0_1_n_n 1024 rfl rfl).symm]
  refine Finset.sum_congr rfl fun k _ => ?_
  have hk := contrEquiv1_symm_val dot_S32x1024_S1024x512_S32x512_1_0_0_1_n_n 1024 rfl rfl k
  have el : dot_S32x1024_S1024x512_S32x512_1_0_0_1_n_n.lhsIdx (ix2 p j) ((contrEquiv1 dot_S32x1024_S1024x512_S32x512_1_0_0_1_n_n 1024 rfl rfl).symm k) = ix2 p k :=
    funext fun a => Fin.ext (by
      match a with
      | ⟨0, _⟩ => exact lhs_1_0 _ _
      | ⟨1, _⟩ => exact (lhs_1_1 _ _).trans hk)
  have er : dot_S32x1024_S1024x512_S32x512_1_0_0_1_n_n.rhsIdx (ix2 p j) ((contrEquiv1 dot_S32x1024_S1024x512_S32x512_1_0_0_1_n_n 1024 rfl rfl).symm k) = ix2 k j :=
    funext fun a => Fin.ext (by
      match a with
      | ⟨0, _⟩ => exact (rhs_1_0 _ _).trans hk
      | ⟨1, _⟩ => exact rhs_1_1 _ _)
  rw [el, er]

theorem lhs_2_0 (i : S32x128.Idx) (q : dot_S32x512_S512x128_S32x128_1_0_0_1_n_n.contr.Idx) :
    (dot_S32x512_S512x128_S32x128_1_0_0_1_n_n.lhsIdx i q 0).val = (i 0).val := by
  unfold DotDims.lhsIdx
  rw [dif_neg (show ¬(0 : Fin S32x512.rank) ∈ dot_S32x512_S512x128_S32x128_1_0_0_1_n_n.lhsBatch by decide),
    dif_pos (show (0 : Fin S32x512.rank) ∈ dot_S32x512_S512x128_S32x128_1_0_0_1_n_n.lhsNonContracting by decide)]
  rfl
theorem lhs_2_1 (i : S32x128.Idx) (q : dot_S32x512_S512x128_S32x128_1_0_0_1_n_n.contr.Idx) :
    (dot_S32x512_S512x128_S32x128_1_0_0_1_n_n.lhsIdx i q 1).val = (q ⟨0, by decide⟩).val :=
  dot_S32x512_S512x128_S32x128_1_0_0_1_n_n.lhsIdx_val_of_single rfl i q
theorem rhs_2_0 (i : S32x128.Idx) (q : dot_S32x512_S512x128_S32x128_1_0_0_1_n_n.contr.Idx) :
    (dot_S32x512_S512x128_S32x128_1_0_0_1_n_n.rhsIdx i q 0).val = (q ⟨0, by decide⟩).val :=
  dot_S32x512_S512x128_S32x128_1_0_0_1_n_n.rhsIdx_val_of_single rfl i q
theorem rhs_2_1 (i : S32x128.Idx) (q : dot_S32x512_S512x128_S32x128_1_0_0_1_n_n.contr.Idx) :
    (dot_S32x512_S512x128_S32x128_1_0_0_1_n_n.rhsIdx i q 1).val = (i 1).val := by
  unfold DotDims.rhsIdx
  rw [dif_neg (show ¬(1 : Fin S512x128.rank) ∈ dot_S32x512_S512x128_S32x128_1_0_0_1_n_n.rhsBatch by decide),
    dif_pos (show (1 : Fin S512x128.rank) ∈ dot_S32x512_S512x128_S32x128_1_0_0_1_n_n.rhsNonContracting by decide)]
  rfl

/-- This contraction into the zero accumulator, read at (p, j): the sum over its 512 inner positions. -/
theorem mm2_apply (v : FVec Ideal S32x512 .f32) (w : FVec Ideal S512x128 .f32) (p : Fin 32) (j : Fin 128) :
    matmul dot_S32x512_S512x128_S32x128_1_0_0_1_n_n none v w (constant S32x128 .f32 0x00000000#32) (ix2 p j)
      = ∑ k : Fin 512, v (ix2 p k) * w (ix2 k j) := by
  simp only [matmul]
  rw [Ideal.matmul_constant_zero_apply, ← Equiv.sum_comp (contrEquiv1 dot_S32x512_S512x128_S32x128_1_0_0_1_n_n 512 rfl rfl).symm]
  refine Finset.sum_congr rfl fun k _ => ?_
  have hk := contrEquiv1_symm_val dot_S32x512_S512x128_S32x128_1_0_0_1_n_n 512 rfl rfl k
  have el : dot_S32x512_S512x128_S32x128_1_0_0_1_n_n.lhsIdx (ix2 p j) ((contrEquiv1 dot_S32x512_S512x128_S32x128_1_0_0_1_n_n 512 rfl rfl).symm k) = ix2 p k :=
    funext fun a => Fin.ext (by
      match a with
      | ⟨0, _⟩ => exact lhs_2_0 _ _
      | ⟨1, _⟩ => exact (lhs_2_1 _ _).trans hk)
  have er : dot_S32x512_S512x128_S32x128_1_0_0_1_n_n.rhsIdx (ix2 p j) ((contrEquiv1 dot_S32x512_S512x128_S32x128_1_0_0_1_n_n 512 rfl rfl).symm k) = ix2 k j :=
    funext fun a => Fin.ext (by
      match a with
      | ⟨0, _⟩ => exact (rhs_2_0 _ _).trans hk
      | ⟨1, _⟩ => exact rhs_2_1 _ _)
  rw [el, er]

theorem lhs_3_0 (i : S32x128.Idx) (q : dot_S32x128_S128x128_S32x128_1_0_0_1_n_n.contr.Idx) :
    (dot_S32x128_S128x128_S32x128_1_0_0_1_n_n.lhsIdx i q 0).val = (i 0).val := by
  unfold DotDims.lhsIdx
  rw [dif_neg (show ¬(0 : Fin S32x128.rank) ∈ dot_S32x128_S128x128_S32x128_1_0_0_1_n_n.lhsBatch by decide),
    dif_pos (show (0 : Fin S32x128.rank) ∈ dot_S32x128_S128x128_S32x128_1_0_0_1_n_n.lhsNonContracting by decide)]
  rfl
theorem lhs_3_1 (i : S32x128.Idx) (q : dot_S32x128_S128x128_S32x128_1_0_0_1_n_n.contr.Idx) :
    (dot_S32x128_S128x128_S32x128_1_0_0_1_n_n.lhsIdx i q 1).val = (q ⟨0, by decide⟩).val :=
  dot_S32x128_S128x128_S32x128_1_0_0_1_n_n.lhsIdx_val_of_single rfl i q
theorem rhs_3_0 (i : S32x128.Idx) (q : dot_S32x128_S128x128_S32x128_1_0_0_1_n_n.contr.Idx) :
    (dot_S32x128_S128x128_S32x128_1_0_0_1_n_n.rhsIdx i q 0).val = (q ⟨0, by decide⟩).val :=
  dot_S32x128_S128x128_S32x128_1_0_0_1_n_n.rhsIdx_val_of_single rfl i q
theorem rhs_3_1 (i : S32x128.Idx) (q : dot_S32x128_S128x128_S32x128_1_0_0_1_n_n.contr.Idx) :
    (dot_S32x128_S128x128_S32x128_1_0_0_1_n_n.rhsIdx i q 1).val = (i 1).val := by
  unfold DotDims.rhsIdx
  rw [dif_neg (show ¬(1 : Fin S128x128.rank) ∈ dot_S32x128_S128x128_S32x128_1_0_0_1_n_n.rhsBatch by decide),
    dif_pos (show (1 : Fin S128x128.rank) ∈ dot_S32x128_S128x128_S32x128_1_0_0_1_n_n.rhsNonContracting by decide)]
  rfl

/-- This contraction into the zero accumulator, read at (p, j): the sum over its 128 inner positions. -/
theorem mm3_apply (v : FVec Ideal S32x128 .f32) (w : FVec Ideal S128x128 .f32) (p : Fin 32) (j : Fin 128) :
    matmul dot_S32x128_S128x128_S32x128_1_0_0_1_n_n none v w (constant S32x128 .f32 0x00000000#32) (ix2 p j)
      = ∑ k : Fin 128, v (ix2 p k) * w (ix2 k j) := by
  simp only [matmul]
  rw [Ideal.matmul_constant_zero_apply, ← Equiv.sum_comp (contrEquiv1 dot_S32x128_S128x128_S32x128_1_0_0_1_n_n 128 rfl rfl).symm]
  refine Finset.sum_congr rfl fun k _ => ?_
  have hk := contrEquiv1_symm_val dot_S32x128_S128x128_S32x128_1_0_0_1_n_n 128 rfl rfl k
  have el : dot_S32x128_S128x128_S32x128_1_0_0_1_n_n.lhsIdx (ix2 p j) ((contrEquiv1 dot_S32x128_S128x128_S32x128_1_0_0_1_n_n 128 rfl rfl).symm k) = ix2 p k :=
    funext fun a => Fin.ext (by
      match a with
      | ⟨0, _⟩ => exact lhs_3_0 _ _
      | ⟨1, _⟩ => exact (lhs_3_1 _ _).trans hk)
  have er : dot_S32x128_S128x128_S32x128_1_0_0_1_n_n.rhsIdx (ix2 p j) ((contrEquiv1 dot_S32x128_S128x128_S32x128_1_0_0_1_n_n 128 rfl rfl).symm k) = ix2 k j :=
    funext fun a => Fin.ext (by
      match a with
      | ⟨0, _⟩ => exact (rhs_3_0 _ _).trans hk
      | ⟨1, _⟩ => exact rhs_3_1 _ _)
  rw [el, er]

/-! ## Loads of a whole buffer -/

theorem ld_rX (x : Vec Ideal S49x32x512 .f32) : View.ld x rX = x :=
  View.ld_unit_zero (funext fun a => by fin_cases a <;> rfl) _ x
theorem ld_rW1 (x : Vec Ideal S1024x512 .f32) : View.ld x rW1 = x :=
  View.ld_unit_zero (funext fun a => by fin_cases a <;> rfl) _ x
theorem ld_rB1 (x : Vec Ideal S1x512 .f32) : View.ld x rB1 = x :=
  View.ld_unit_zero (funext fun a => by fin_cases a <;> rfl) _ x
theorem ld_rW2 (x : Vec Ideal S512x128 .f32) : View.ld x rW2 = x :=
  View.ld_unit_zero (funext fun a => by fin_cases a <;> rfl) _ x
theorem ld_rB2 (x : Vec Ideal S1x128 .f32) : View.ld x rB2 = x :=
  View.ld_unit_zero (funext fun a => by fin_cases a <;> rfl) _ x
theorem ld_rW3 (x : Vec Ideal S128x128 .f32) : View.ld x rW3 = x :=
  View.ld_unit_zero (funext fun a => by fin_cases a <;> rfl) _ x

/-! ## The spatial sum and the two halves -/

/-- The sum over the 49 spatial positions of a half-block, read at (p, c). -/
theorem spatial_apply (x : FVec Ideal S49x32x512 .f32) (p : Fin 32) (c : Fin 512) :
    multiReduction (F := Ideal) .add [0] S32x512 x 0x00000000#32 reduces_S49x32x512_S32x512 (.inl rfl) rfl (ix2 p c)
      = ∑ s : Fin 49, x (ix3 s p c) := by
  refine (Ideal.multiReduction_add_single x 0x00000000#32 reduces_S49x32x512_S32x512 (.inl rfl) rfl (ix2 p c)).trans ?_
  refine Finset.sum_congr rfl fun s _ => congrArg x (funext fun a => Fin.ext ?_)
  match a with
  | ⟨0, _⟩ => rfl
  | ⟨1, _⟩ => rfl
  | ⟨2, _⟩ => rfl

/-- The two pooled halves side by side, read at (p, k): the first half below 512, the second from 512 on. -/
theorem concat_apply (a b : FVec Ideal S32x512 .f32) (p : Fin 32) (k : Fin 1024) :
    concatenate S32x1024 1 [⟨S32x512, a⟩, ⟨S32x512, b⟩] concatenates_S32x512_S32x512_S32x1024_d1 (ix2 p k)
      = if h : k.val < 512 then a (ix2 p ⟨k.val, h⟩) else b (ix2 p ⟨k.val - 512, by omega⟩) := by
  by_cases h : k.val < 512
  · rw [dif_pos h]
    refine concatenate_pair_apply_left 1 a b _ (ix2 p k) rfl (ix2 p ⟨k.val, h⟩) fun ax => ?_
    match ax with
    | ⟨0, _⟩ => rfl
    | ⟨1, _⟩ => rfl
  · rw [dif_neg h]
    refine concatenate_pair_apply_right 1 a b _ (ix2 p k) rfl rfl (ix2 p ⟨k.val - 512, by omega⟩) (fun ax hne => ?_) ?_
    · match ax with
      | ⟨0, _⟩ => rfl
      | ⟨1, _⟩ => exact absurd rfl hne
    · show (k.val - 512) + 512 = k.val
      omega

/-! ## One layer, the scaling to unit length, and the pooled input, each read at an index -/

/-- The reciprocal square root of a vector, read at an index. -/
theorem rsqrt_apply {s : Shape} {φ : FTy} (a : FVec Ideal s φ) (i : s.Idx) : rsqrt a i = Ideal.rsqrt (a i) := rfl

/-- The sum along the 128 lanes of a block's row. -/
theorem rowsum_apply (x : FVec Ideal S32x128 .f32) (p : Fin 32) :
    multiReduction (F := Ideal) .add [1] S32 x 0x00000000#32 reduces_S32x128_S32 (.inl rfl) rfl (ix1 p)
      = ∑ i : Fin 128, x (ix2 p i) := by
  refine (Ideal.multiReduction_add_single x 0x00000000#32 reduces_S32x128_S32 (.inl rfl) rfl (ix1 p)).trans ?_
  refine Finset.sum_congr rfl fun i _ => congrArg x (funext fun a => Fin.ext ?_)
  match a with
  | ⟨0, _⟩ => rfl
  | ⟨1, _⟩ => rfl

/-- The pooled row: the two halves' spatial sums side by side, times the constant. -/
theorem pooled_apply (x0 x1 : FVec Ideal S49x32x512 .f32) (p : Fin 32) (k : Fin 1024) :
    mulf (concatenate S32x1024 1
          [⟨S32x512, multiReduction (F := Ideal) .add [0] S32x512 x0 0x00000000#32 reduces_S49x32x512_S32x512 (.inl rfl) rfl⟩,
           ⟨S32x512, multiReduction (F := Ideal) .add [0] S32x512 x1 0x00000000#32 reduces_S49x32x512_S32x512 (.inl rfl) rfl⟩]
          concatenates_S32x512_S32x512_S32x1024_d1)
        (broadcast S32x1024 (Scalar.ofBits .f32 0x3CA72F05#32)) (ix2 p k)
      = Spec.pool (halves x0 x1 p) k := by
  rw [mulf_apply, concat_apply, broadcast_apply]
  unfold Spec.pool halves
  by_cases h : k.val < 512
  · simp only [dif_pos h]
    rw [spatial_apply]
    rfl
  · simp only [dif_neg h]
    rw [spatial_apply]
    rfl

/-- The first layer (1024 to 512) with its ReLU, read at (p, j). -/
theorem layer1_apply (v : FVec Ideal S32x1024 .f32) (w : FVec Ideal S1024x512 .f32) (b : FVec Ideal S1x512 .f32) (p : Fin 32) (j : Fin 512) :
    maximumf (addf (matmul dot_S32x1024_S1024x512_S32x512_1_0_0_1_n_n none v w (constant S32x512 .f32 0x00000000#32))
          (broadcastTo S32x512 b broadcasts_S1x512_S32x512))
        (broadcast S32x512 (Scalar.ofBits .f32 0x00000000#32)) (ix2 p j)
      = Spec.layer (fun k => v (ix2 p k)) (fun i j => w (ix2 i j)) (fun j => b (ix2 0 j)) j := by
  rw [maximumf_apply, addf_apply, mm1_apply, broadcastTo_1b_ab_apply, broadcast_apply]
  rfl

/-- The second layer (512 to 128) with its ReLU, read at (p, j). -/
theorem layer2_apply (v : FVec Ideal S32x512 .f32) (w : FVec Ideal S512x128 .f32) (b : FVec Ideal S1x128 .f32) (p : Fin 32) (j : Fin 128) :
    maximumf (addf (matmul dot_S32x512_S512x128_S32x128_1_0_0_1_n_n none v w (constant S32x128 .f32 0x00000000#32))
          (broadcastTo S32x128 b broadcasts_S1x128_S32x128))
        (broadcast S32x128 (Scalar.ofBits .f32 0x00000000#32)) (ix2 p j)
      = Spec.layer (fun k => v (ix2 p k)) (fun i j => w (ix2 i j)) (fun j => b (ix2 0 j)) j := by
  rw [maximumf_apply, addf_apply, mm2_apply, broadcastTo_1b_ab_apply, broadcast_apply]
  rfl

/-- A block scaled row by row to unit length (squared length floored at the constant), read at (p, q). -/
theorem unit_apply (h : FVec Ideal S32x128 .f32) (p : Fin 32) (q : Fin 128) :
    mulf h (broadcastTo S32x128
        (rsqrt (maximumf
          (shapeCast S32x1 (multiReduction (F := Ideal) .add [1] S32 (mulf h h) 0x00000000#32 reduces_S32x128_S32 (.inl rfl) rfl) shapeCasts_S32_S32x1)
          (broadcast S32x1 (Scalar.ofBits .f32 0x179ABE15#32))))
        broadcasts_S32x1_S32x128) (ix2 p q)
      = Spec.unit (fun j => h (ix2 p j)) q := by
  rw [mulf_apply, Cert.LibKeepdims.broadcastTo_a1_ab_apply, rsqrt_apply, maximumf_apply,
    Cert.LibKeepdims.shapeCast_a_a1_apply, rowsum_apply, broadcast_apply]
  simp only [mulf_apply]
  rfl

/-! ## The feature payload -/

/-- The feature payload of any six blocks, read at (p, q). -/
theorem pay2_apply (v0 v3 : Vec Ideal S49x32x512 .f32) (v9 : Vec Ideal S1024x512 .f32) (v11 : Vec Ideal S1x512 .f32)
    (v16 : Vec Ideal S512x128 .f32) (v18 : Vec Ideal S1x128 .f32) (p : Fin 32) (q : Fin 128) :
    k0_pay2 (F := Ideal) v0 v3 v9 v11 v16 v18 (ix2 p q)
      = Spec.feature (halves v0 v3 p) (fun i j => v9 (ix2 i j)) (fun j => v11 (ix2 0 j))
          (fun i j => v16 (ix2 i j)) (fun j => v18 (ix2 0 j)) q := by
  have e0 : shapeCast S49x32x512 (v0 : FVec Ideal S49x32x512 .f32) shapeCasts_S49x32x512_S49x32x512 = v0 := shapeCast_self _ _
  have e3 : shapeCast S49x32x512 (v3 : FVec Ideal S49x32x512 .f32) shapeCasts_S49x32x512_S49x32x512 = v3 := shapeCast_self _ _
  unfold k0_pay2
  rw [e0, e3]
  simp only []
  unfold Spec.feature
  refine (unit_apply _ p q).trans (congrArg (fun f => Spec.unit f q) (funext fun j => ?_))
  refine (layer2_apply _ _ _ p j).trans (congrArg (fun f => Spec.layer f _ _ j) (funext fun k => ?_))
  refine (layer1_apply _ _ _ p k).trans (congrArg (fun f => Spec.layer f _ _ k) (funext fun c => ?_))
  exact pooled_apply _ _ p c

end KPay

/-! ## The two stored blocks -/

/-- The stored feature block at (p, q). -/
theorem featBlk_apply (x0 x1 : Vec Ideal S49x32x512 .f32) (x2 : Vec Ideal S1024x512 .f32) (x3 : Vec Ideal S1x512 .f32)
    (x4 : Vec Ideal S512x128 .f32) (x5 : Vec Ideal S1x128 .f32) (p : Fin 32) (q : Fin 128) :
    featBlk (F := Ideal) x0 x1 x2 x3 x4 x5 (ix2 p q)
      = Spec.feature (halves x0 x1 p) (fun i j => x2 (ix2 i j)) (fun j => x3 (ix2 0 j))
          (fun i j => x4 (ix2 i j)) (fun j => x5 (ix2 0 j)) q := by
  unfold featBlk
  rw [KPay.ld_rX, KPay.ld_rX, KPay.ld_rW1, KPay.ld_rB1, KPay.ld_rW2, KPay.ld_rB2]
  exact KPay.pay2_apply x0 x1 x2 x3 x4 x5 p q

/-- The stored logits block at (p, q). -/
theorem logitBlk_apply (x0 x1 : Vec Ideal S49x32x512 .f32) (x2 : Vec Ideal S1024x512 .f32) (x3 : Vec Ideal S1x512 .f32)
    (x4 : Vec Ideal S512x128 .f32) (x5 : Vec Ideal S1x128 .f32) (x6 : Vec Ideal S128x128 .f32) (x7 : Vec Ideal S1x128 .f32)
    (p : Fin 32) (q : Fin 128) :
    k0_pay1 (F := Ideal) (featBlk x0 x1 x2 x3 x4 x5) (k0_pay3 (View.ld x6 rW3)) (constant S32x128 .f32 0x00000000#32) (View.ld x7 rB2) (ix2 p q)
      = Spec.logits (halves x0 x1 p) (fun i j => x2 (ix2 i j)) (fun j => x3 (ix2 0 j))
          (fun i j => x4 (ix2 i j)) (fun j => x5 (ix2 0 j)) (fun i j => x6 (ix2 i j)) (fun j => x7 (ix2 0 j)) q := by
  unfold k0_pay1 k0_pay3
  simp only [shapeCast_self]
  rw [KPay.ld_rW3, KPay.ld_rB2, addf_apply, KPay.mm3_apply, broadcastTo_1b_ab_apply]
  unfold Spec.logits Spec.affine
  refine congrArg (· + x7 (ix2 0 q)) (Finset.sum_congr rfl fun k _ => ?_)
  rw [featBlk_apply]

end Cert.KernelIdeal.Hand

end
-- ==== Proof.KValue.lean ====
/-
  What the fused kernel's two output arrays hold when its region ends, at the exact (extended-real) reading: row `b`
  of the feature array is the normalised feature of input row `b`, and row `b` of the padded logits array its padded
  logits — the functions of Proof/Spec.lean applied to row `b` of the region's input arrays. Grid point `t` writes rows
  32t..32t+31 of both arrays, and the eight points cover the 256 rows.
-/
import proofs.«133866_g2000702716457357_pallasbulk_1135_8_alg».proof.Proof.KBody
import proofs.«133866_g2000702716457357_pallasbulk_1135_8_alg».proof.Proof.KPay
import proofs.«133866_g2000702716457357_pallasbulk_1135_8_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's input arrays on core `c`, each at its literal type. -/
abbrev xT (c : Dev nD) : FVec Ideal S49x256x1024 .f32 := V c main_v1
abbrev aW1 (c : Dev nD) : FVec Ideal S1024x512 .f32 := V c main_arg1
abbrev aB1 (c : Dev nD) : FVec Ideal S1x512 .f32 := V c main_arg2
abbrev aW2 (c : Dev nD) : FVec Ideal S512x128 .f32 := V c main_arg3
abbrev aB2 (c : Dev nD) : FVec Ideal S1x128 .f32 := V c main_arg4
abbrev aW3 (c : Dev nD) : FVec Ideal S128x128 .f32 := V c main_v2
abbrev aB3 (c : Dev nD) : FVec Ideal S1x128 .f32 := V c main_v3

/-- Row `b` of the spatially-major input view: channel `k`, spatial position `s`. -/
def xRow (c : Dev nD) (b : Fin 256) : Fin 1024 → Fin 49 → EReal := fun k s => xT V c (ix3 s b k)

/-! ## The printed index maps over the grid -/

theorem zeros2 : (![0, 0] : Fin 2 → Nat) = fun _ => 0 := funext fun a => by fin_cases a <;> rfl

/-- The two halves of the input move with the point along the batch axis, the first at channel block 0 and the second at
    channel block 1. -/
theorem idx_in : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 1 :=
  (by decide +kernel : ∀ t : Fin grid0.N, _)

/-- Every weight window stays at block (0, 0). -/
theorem idx_w : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Both outputs move with the point along the rows. -/
theorem idx_out : ∀ t : Fin cfg0.N,
    win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each input block as a part of its array -/

/-- The first half-block at point `t`: spatial position and channel as they are, batch row `32 t + ` the row inside. -/
theorem iblk0_0_apply (c : Dev nD) (t : Fin cfg0.N) (y : S49x32x512.Idx) (k : S49x256x1024.Idx)
    (h0 : (k 0).val = (y 0).val) (h1 : (k 1).val = 32 * t.val + (y 1).val) (h2 : (k 2).val = (y 2).val) :
    (iblk0 V c 0 t : Vec Ideal S49x32x512 .f32) y = xT V c k := by
  obtain ⟨e0, e1, e2, -⟩ := idx_in t
  unfold iblk0
  rw [View.read_apply]
  show V c main_v1 _ = V c main_v1 _
  congr 1
  funext a
  apply Fin.ext
  match a with
  | ⟨0, _⟩ => show win0_0.index t (0 : Fin 3) * 49 + 1 * (y 0).val = (k 0).val; rw [e0, h0]; omega
  | ⟨1, _⟩ => show win0_0.index t (1 : Fin 3) * 32 + 1 * (y 1).val = (k 1).val; rw [e1, h1]; omega
  | ⟨2, _⟩ => show win0_0.index t (2 : Fin 3) * 512 + 1 * (y 2).val = (k 2).val; rw [e2, h2]; omega

/-- The second half-block at point `t`: the same rows, channels 512 further on. -/
theorem iblk0_1_apply (c : Dev nD) (t : Fin cfg0.N) (y : S49x32x512.Idx) (k : S49x256x1024.Idx)
    (h0 : (k 0).val = (y 0).val) (h1 : (k 1).val = 32 * t.val + (y 1).val) (h2 : (k 2).val = 512 + (y 2).val) :
    (iblk0 V c 1 t : Vec Ideal S49x32x512 .f32) y = xT V c k := by
  obtain ⟨-, -, -, e0, e1, e2⟩ := idx_in t
  unfold iblk0
  rw [View.read_apply]
  show V c main_v1 _ = V c main_v1 _
  congr 1
  funext a
  apply Fin.ext
  match a with
  | ⟨0, _⟩ => show win0_1.index t (0 : Fin 3) * 49 + 1 * (y 0).val = (k 0).val; rw [e0, h0]; omega
  | ⟨1, _⟩ => show win0_1.index t (1 : Fin 3) * 32 + 1 * (y 1).val = (k 1).val; rw [e1, h1]; omega
  | ⟨2, _⟩ => show win0_1.index t (2 : Fin 3) * 512 + 1 * (y 2).val = (k 2).val; rw [e2, h2]; omega

/-- Row `p` of point `t`'s two half-blocks is row `32 t + p` of the input. -/
theorem halves_iblk (c : Dev nD) (t : Fin cfg0.N) (p : Fin 32) (b : Fin 256) (hb : b.val = 32 * t.val + p.val) :
    halves (iblk0 V c 0 t) (iblk0 V c 1 t) p = xRow V c b := by
  funext k s
  unfold halves xRow
  split
  · rename_i h
    exact iblk0_0_apply V c t _ _ rfl hb rfl
  · rename_i h
    refine iblk0_1_apply V c t _ _ rfl hb ?_
    show k.val = 512 + (k.val - 512)
    omega

/-- A weight window's block is its whole array. -/
theorem iblk0_2_eq (c : Dev nD) (t : Fin cfg0.N) : (iblk0 V c 2 t : Vec Ideal S1024x512 .f32) = aW1 V c := by
  obtain ⟨e0, e1, -⟩ := idx_w t
  funext y
  unfold iblk0
  rw [View.read_apply]
  show V c main_arg1 _ = V c main_arg1 _
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 512 + 1 * (y 1).val = (y 1).val; rw [e1]; omega

theorem iblk0_3_eq (c : Dev nD) (t : Fin cfg0.N) : (iblk0 V c 3 t : Vec Ideal S1x512 .f32) = aB1 V c := by
  obtain ⟨-, -, e0, e1, -⟩ := idx_w t
  funext y
  unfold iblk0
  rw [View.read_apply]
  show V c main_arg2 _ = V c main_arg2 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

theorem iblk0_4_eq (c : Dev nD) (t : Fin cfg0.N) : (iblk0 V c 4 t : Vec Ideal S512x128 .f32) = aW2 V c := by
  obtain ⟨-, -, -, -, e0, e1, -⟩ := idx_w t
  funext y
  unfold iblk0
  rw [View.read_apply]
  show V c main_arg3 _ = V c main_arg3 _
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 128 + 1 * (y 1).val = (y 1).val; rw [e1]; omega

theorem iblk0_5_eq (c : Dev nD) (t : Fin cfg0.N) : (iblk0 V c 5 t : Vec Ideal S1x128 .f32) = aB2 V c := by
  obtain ⟨-, -, -, -, -, -, e0, e1, -⟩ := idx_w t
  funext y
  unfold iblk0
  rw [View.read_apply]
  show V c main_arg4 _ = V c main_arg4 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem iblk0_6_eq (c : Dev nD) (t : Fin cfg0.N) : (iblk0 V c 6 t : Vec Ideal S128x128 .f32) = aW3 V c := by
  obtain ⟨-, -, -, -, -, -, -, -, e0, e1, -⟩ := idx_w t
  funext y
  unfold iblk0
  rw [View.read_apply]
  show V c main_v2 _ = V c main_v2 _
  congr 1
  funext a
  apply Fin.ext
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

theorem iblk0_7_eq (c : Dev nD) (t : Fin cfg0.N) : (iblk0 V c 7 t : Vec Ideal S1x128 .f32) = aB3 V c := by
  obtain ⟨-, -, -, -, -, -, -, -, -, -, e0, e1⟩ := idx_w t
  funext y
  unfold iblk0
  rw [View.read_apply]
  show V c main_v3 _ = V c main_v3 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-! ## The feature array -/

/-- The whole feature array: at (b, q), the normalised feature of input row `b`, component `q`. -/
def featArr (c : Dev nD) : S256x128.Idx → EReal := fun i =>
  Spec.feature (xRow V c (i 0)) (fun i j => aW1 V c (ix2 i j)) (fun j => aB1 V c (ix2 0 j))
    (fun i j => aW2 V c (ix2 i j)) (fun j => aB2 V c (ix2 0 j)) (i 1)

/-- What point `t` stores at (p, q) of its feature block is the whole array's entry at (32 t + p, q). -/
theorem feat_point (c : Dev nD) (t : Fin cfg0.N) (y : S32x128.Idx) (i : S256x128.Idx)
    (h0 : (i 0).val = 32 * t.val + (y 0).val) (h1 : (i 1).val = (y 1).val) :
    featBlk (F := Ideal) (iblk0 V c 0 t) (iblk0 V c 1 t) (iblk0 V c 2 t) (iblk0 V c 3 t) (iblk0 V c 4 t) (iblk0 V c 5 t) y
      = featArr V c i := by
  obtain ⟨p, q, rfl⟩ : ∃ (p : Fin 32) (q : Fin 128), y = ix2 p q := ⟨y 0, y 1, eq_ix2 y⟩
  obtain ⟨b, q', rfl⟩ : ∃ (b : Fin 256) (q' : Fin 128), i = ix2 b q' := ⟨i 0, i 1, eq_ix2 i⟩
  obtain rfl : q' = q := Fin.ext h1
  refine (featBlk_apply _ _ _ _ _ _ p q').trans ?_
  rw [halves_iblk V c t p b h0, iblk0_2_eq, iblk0_3_eq, iblk0_4_eq, iblk0_5_eq]
  rfl

/-- What point `t` writes back to the feature array is its block of the whole array. -/
theorem flushed8_eq (c : Dev nD) (t : Fin cfg0.N) :
    (dat0 V c).flushed 8 t = ((cfg0.win 8).blk t).view.read (Elt Ideal) (featArr V c) := by
  obtain ⟨e0, e1, -⟩ := idx_out t
  show (cfg0.win 8).cut (grid0.coords t) ((dat0 V c).after 8 t) = _
  rw [after0_8]
  unfold out0_8
  rw [View.canon_unit_zero zeros2]
  funext j
  show featBlk (F := Ideal) (iblk0 V c 0 t) (iblk0 V c 1 t) (iblk0 V c 2 t) (iblk0 V c 3 t) (iblk0 V c 4 t) (iblk0 V c 5 t) j
    = featArr V c (((cfg0.win 8).blk t).view.emb j)
  refine feat_point V c t j _ ?_ ?_
  · show win0_8.index t (0 : Fin 2) * 32 + 1 * (j 0).val = 32 * t.val + (j 0).val
    rw [e0]; omega
  · show win0_8.index t (1 : Fin 2) * 128 + 1 * (j 1).val = (j 1).val
    rw [e1]; omega

/-- An index of a 256 x 128 output array is in point `t`'s block iff each coordinate is in the block's range on its axis. -/
theorem mem_blk8 (t : Fin cfg0.N) (i : S256x128.Idx) :
    i ∈ ((cfg0.win 8).blk t).view.set ↔ ∀ a : Fin 2, win0_8.index t a * S32x128.size a ≤ (i a).val ∧ (i a).val < win0_8.index t a * S32x128.size a + S32x128.size a := by
  show i ∈ ((View.whole main_v4_0).slice (win0_8.rect t)).set ↔ _
  rw [View.set_slice_whole, Rect.mem_set_unit]
  exact Iff.rfl

theorem points8 : cfg0.N = 8 := rfl

/-- Row `b` of the feature array is written by point `b / 32`. -/
theorem cover8 (i : S256x128.Idx) :
    ∃ t : Fin cfg0.N, (cfg0.win 8).flush t = true ∧ i ∈ ((cfg0.win 8).blk t).view.set := by
  have hi0 : (i 0).val < 256 := (i 0).isLt
  have hi1 : (i 1).val < 128 := (i 1).isLt
  have ht : (i 0).val / 32 < cfg0.N := by rw [points8]; omega
  obtain ⟨e0, e1, -⟩ := idx_out ⟨(i 0).val / 32, ht⟩
  have ev : (⟨(i 0).val / 32, ht⟩ : Fin cfg0.N).val = (i 0).val / 32 := rfl
  refine ⟨⟨(i 0).val / 32, ht⟩, flush0_8 _, ?_⟩
  rw [mem_blk8]
  intro a
  match a with
  | ⟨0, _⟩ =>
    show win0_8.index ⟨(i 0).val / 32, ht⟩ (0 : Fin 2) * 32 ≤ (i 0).val ∧ (i 0).val < win0_8.index ⟨(i 0).val / 32, ht⟩ (0 : Fin 2) * 32 + 32
    rw [e0, ev]; omega
  | ⟨1, _⟩ =>
    show win0_8.index ⟨(i 0).val / 32, ht⟩ (1 : Fin 2) * 128 ≤ (i 1).val ∧ (i 1).val < win0_8.index ⟨(i 0).val / 32, ht⟩ (1 : Fin 2) * 128 + 128
    rw [e1]; omega

/-- The feature array after the region, whole. -/
theorem arr8 (c : Dev nD) : (dat0 V c).arrAt 8 cfg0.N = featArr V c :=
  (dat0 V c).arrAt_eq_of_cover 8 (featArr V c) (fun t _ => flushed8_eq V c t) cover8

/-! ## The padded logits array -/

/-- The whole padded logits array: at (b, q), the padded logits of input row `b`, component `q`. -/
def logitArr (c : Dev nD) : S256x128.Idx → EReal := fun i =>
  Spec.logits (xRow V c (i 0)) (fun i j => aW1 V c (ix2 i j)) (fun j => aB1 V c (ix2 0 j))
    (fun i j => aW2 V c (ix2 i j)) (fun j => aB2 V c (ix2 0 j))
    (fun i j => aW3 V c (ix2 i j)) (fun j => aB3 V c (ix2 0 j)) (i 1)

/-- What point `t` stores at (p, q) of its logits block is the whole array's entry at (32 t + p, q). -/
theorem logit_point (c : Dev nD) (t : Fin cfg0.N) (y : S32x128.Idx) (i : S256x128.Idx)
    (h0 : (i 0).val = 32 * t.val + (y 0).val) (h1 : (i 1).val = (y 1).val) :
    k0_pay1 (F := Ideal) (featBlk (iblk0 V c 0 t) (iblk0 V c 1 t) (iblk0 V c 2 t) (iblk0 V c 3 t) (iblk0 V c 4 t) (iblk0 V c 5 t))
        (k0_pay3 (View.ld (iblk0 V c 6 t) rW3)) (constant S32x128 .f32 0x00000000#32) (View.ld (iblk0 V c 7 t) rB2) y
      = logitArr V c i := by
  obtain ⟨p, q, rfl⟩ : ∃ (p : Fin 32) (q : Fin 128), y = ix2 p q := ⟨y 0, y 1, eq_ix2 y⟩
  obtain ⟨b, q', rfl⟩ : ∃ (b : Fin 256) (q' : Fin 128), i = ix2 b q' := ⟨i 0, i 1, eq_ix2 i⟩
  obtain rfl : q' = q := Fin.ext h1
  refine (logitBlk_apply _ _ _ _ _ _ _ _ p q').trans ?_
  rw [halves_iblk V c t p b h0, iblk0_2_eq, iblk0_3_eq, iblk0_4_eq, iblk0_5_eq, iblk0_6_eq, iblk0_7_eq]
  rfl

/-- What point `t` writes back to the logits array is its block of the whole array. -/
theorem flushed9_eq (c : Dev nD) (t : Fin cfg0.N) :
    (dat0 V c).flushed 9 t = ((cfg0.win 9).blk t).view.read (Elt Ideal) (logitArr V c) := by
  obtain ⟨-, -, e0, e1⟩ := idx_out t
  show (cfg0.win 9).cut (grid0.coords t) ((dat0 V c).after 9 t) = _
  rw [after0_9]
  unfold out0_9
  rw [View.canon_unit_zero zeros2]
  funext j
  show k0_pay1 (F := Ideal) (featBlk (iblk0 V c 0 t) (iblk0 V c 1 t) (iblk0 V c 2 t) (iblk0 V c 3 t) (iblk0 V c 4 t) (iblk0 V c 5 t))
        (k0_pay3 (View.ld (iblk0 V c 6 t) rW3)) (constant S32x128 .f32 0x00000000#32) (View.ld (iblk0 V c 7 t) rB2) j
    = logitArr V c (((cfg0.win 9).blk t).view.emb j)
  refine logit_point V c t j _ ?_ ?_
  · show win0_9.index t (0 : Fin 2) * 32 + 1 * (j 0).val = 32 * t.val + (j 0).val
    rw [e0]; omega
  · show win0_9.index t (1 : Fin 2) * 128 + 1 * (j 1).val = (j 1).val
    rw [e1]; omega

theorem mem_blk9 (t : Fin cfg0.N) (i : S256x128.Idx) :
    i ∈ ((cfg0.win 9).blk t).view.set ↔ ∀ a : Fin 2, win0_9.index t a * S32x128.size a ≤ (i a).val ∧ (i a).val < win0_9.index t a * S32x128.size a + S32x128.size a := by
  show i ∈ ((View.whole main_v4_1).slice (win0_9.rect t)).set ↔ _
  rw [View.set_slice_whole, Rect.mem_set_unit]
  exact Iff.rfl

/-- Row `b` of the logits array is written by point `b / 32`. -/
theorem cover9 (i : S256x128.Idx) :
    ∃ t : Fin cfg0.N, (cfg0.win 9).flush t = true ∧ i ∈ ((cfg0.win 9).blk t).view.set := by
  have hi0 : (i 0).val < 256 := (i 0).isLt
  have hi1 : (i 1).val < 128 := (i 1).isLt
  have ht : (i 0).val / 32 < cfg0.N := by rw [points8]; omega
  obtain ⟨-, -, e0, e1⟩ := idx_out ⟨(i 0).val / 32, ht⟩
  have ev : (⟨(i 0).val / 32, ht⟩ : Fin cfg0.N).val = (i 0).val / 32 := rfl
  refine ⟨⟨(i 0).val / 32, ht⟩, flush0_9 _, ?_⟩
  rw [mem_blk9]
  intro a
  match a with
  | ⟨0, _⟩ =>
    show win0_9.index ⟨(i 0).val / 32, ht⟩ (0 : Fin 2) * 32 ≤ (i 0).val ∧ (i 0).val < win0_9.index ⟨(i 0).val / 32, ht⟩ (0 : Fin 2) * 32 + 32
    rw [e0, ev]; omega
  | ⟨1, _⟩ =>
    show win0_9.index ⟨(i 0).val / 32, ht⟩ (1 : Fin 2) * 128 ≤ (i 1).val ∧ (i 1).val < win0_9.index ⟨(i 0).val / 32, ht⟩ (1 : Fin 2) * 128 + 128
    rw [e1]; omega

/-- The padded logits array after the region, whole. -/
theorem arr9 (c : Dev nD) : (dat0 V c).arrAt 9 cfg0.N = logitArr V c :=
  (dat0 V c).arrAt_eq_of_cover 9 (logitArr V c) (fun t _ => flushed9_eq V c t) cover9

/-- The feature array after the region. -/
theorem final8 (c : Dev nD) (b : Fin 256) (q : Fin 128) :
    ((dat0 V c).arrAt 8 cfg0.N : FVec Ideal S256x128 .f32) (ix2 b q)
      = Spec.feature (xRow V c b) (fun i j => aW1 V c (ix2 i j)) (fun j => aB1 V c (ix2 0 j))
          (fun i j => aW2 V c (ix2 i j)) (fun j => aB2 V c (ix2 0 j)) q := by
  exact congrFun (arr8 V c) (ix2 b q)

/-- The padded logits array after the region. -/
theorem final9 (c : Dev nD) (b : Fin 256) (q : Fin 128) :
    ((dat0 V c).arrAt 9 cfg0.N : FVec Ideal S256x128 .f32) (ix2 b q)
      = Spec.logits (xRow V c b) (fun i j => aW1 V c (ix2 i j)) (fun j => aB1 V c (ix2 0 j))
          (fun i j => aW2 V c (ix2 i j)) (fun j => aB2 V c (ix2 0 j))
          (fun i j => aW3 V c (ix2 i j)) (fun j => aB3 V c (ix2 0 j)) q := by
  exact congrFun (arr9 V c) (ix2 b q)

end Cert.KernelIdeal.Hand

end
-- ==== Proof.HostK.lean ====
/-
  The kernel program's host operations around its region, read at the exact (extended-real) instance: what the
  region's input arrays hold when it is entered, from the launch contents, and what the results hold after the slice
  that follows it. The spatially-major view is the input transposed to (h, w, b, c) and flattened to (7h + w, b, c);
  the last layer's weights and bias are padded with the converted integer zero to 128 columns; the weights of the
  first two layers and their biases are untouched; the logits result is the first three columns of the padded block.
-/
import proofs.«133866_g2000702716457357_pallasbulk_1135_8_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- The buffer contents at the region's entry, from the launch contents `W`: the four host stretches before it. -/
abbrev entryOf (W : Valuation τ sig (Elt Ideal)) : Valuation τ sig (Elt Ideal) :=
  StableHlo.after hostOps0_3 (StableHlo.after hostOps0_2 (StableHlo.after hostOps0_1 (StableHlo.after hostOps0 W)))

/-- The converted integer zero both pads fill with. -/
abbrev padZero : FVec Ideal S_ .f32 := sitofp .f32 (constantI S_ 32 0#32)

/-- A reference other than the one an operation writes is not among that operation's written references. -/
theorem not_mem_single {x y : Ref sig .tc} (h : x ≠ y) :
    Proc.devRef (τ := τ) .tc x ∉ ({Proc.devRef .tc y} : Finset (DevRef τ sig)) :=
  fun hm => StableHlo.devRef_ne_of_ne h (Finset.mem_singleton.mp hm)

local macro "nw" : term => `(not_mem_single (by decide))

/-- A reference none of the four stretches before the region writes holds at the entry what the launch gave it. -/
theorem entry_keep (W : Valuation τ sig (Elt Ideal)) (r : Ref sig .tc)
    (h0 : (hostOps0 (F := Ideal)).Forall fun op => Proc.devRef (τ := τ) .tc r ∉ op.writes)
    (h1 : (hostOps0_1 (F := Ideal)).Forall fun op => Proc.devRef (τ := τ) .tc r ∉ op.writes)
    (h2 : (hostOps0_2 (F := Ideal)).Forall fun op => Proc.devRef (τ := τ) .tc r ∉ op.writes)
    (h3 : (hostOps0_3 (F := Ideal)).Forall fun op => Proc.devRef (τ := τ) .tc r ∉ op.writes) :
    entryOf W (Proc.devRef .tc r) = W (Proc.devRef .tc r) :=
  (StableHlo.after_of_forall_not_mem (b := Proc.devRef .tc r) hostOps0_3 _ (List.forall_iff_forall_mem.mp h3)).trans
    ((StableHlo.after_of_forall_not_mem (b := Proc.devRef .tc r) hostOps0_2 _ (List.forall_iff_forall_mem.mp h2)).trans
      ((StableHlo.after_of_forall_not_mem (b := Proc.devRef .tc r) hostOps0_1 _ (List.forall_iff_forall_mem.mp h1)).trans
        (StableHlo.after_of_forall_not_mem (b := Proc.devRef .tc r) hostOps0 W (List.forall_iff_forall_mem.mp h0))))

/-- The transposed input, (h, w, b, c), read at an index: the input at (b, c, h, w). -/
theorem transposed_apply (x : FVec Ideal S256x1024x7x7 .f32) (h : Fin 7) (w : Fin 7) (b : Fin 256) (k : Fin 1024) :
    transpose S7x7x256x1024 [2, 3, 0, 1] x Facts₀.transposes_S256x1024x7x7_S7x7x256x1024_2_3_0_1 (ix4 h w b k)
      = x (ix4 b k h w) :=
  transpose_apply _ x _ _ _ fun c => match c with | ⟨0, _⟩ => rfl | ⟨1, _⟩ => rfl | ⟨2, _⟩ => rfl | ⟨3, _⟩ => rfl

/-- The flattening of the two spatial axes read at an index: position s is row s / 7, column s % 7. -/
theorem flattened_apply (y : FVec Ideal S7x7x256x1024 .f32) (s : Fin 49) (b : Fin 256) (k : Fin 1024) :
    shapeCast S49x256x1024 y Facts₀.shapeCasts_S7x7x256x1024_S49x256x1024 (ix3 s b k)
      = y (ix4 (⟨s.val / 7, by omega⟩ : Fin 7) (⟨s.val % 7, by omega⟩ : Fin 7) b k) :=
  shapeCast_apply y _ _ _ (by
    rw [Shape.rowMajor_val_four, Shape.rowMajor_val_three]
    show (((s.val / 7) * 7 + s.val % 7) * 256 + b.val) * 1024 + k.val = (s.val * 256 + b.val) * 1024 + k.val
    have := Nat.div_add_mod s.val 7
    have e : (s.val / 7) * 7 + s.val % 7 = s.val := by omega
    rw [e])

/-- The spatially-major view at (s, b, k) is the input at (b, k, s / 7, s % 7). -/
theorem entry_x (W : Valuation τ sig (Elt Ideal)) (s : Fin 49) (b : Fin 256) (k : Fin 1024) :
    (entryOf W (Proc.devRef .tc main_v1) : FVec Ideal S49x256x1024 .f32) (ix3 s b k)
      = (W (Proc.devRef .tc main_arg0) : FVec Ideal S256x1024x7x7 .f32) (ix4 b k ⟨s.val / 7, by omega⟩ ⟨s.val % 7, by omega⟩) := by
  have e : (entryOf W (Proc.devRef .tc main_v1) : FVec Ideal S49x256x1024 .f32)
      = shapeCast S49x256x1024
          (transpose S7x7x256x1024 [2, 3, 0, 1] (W (Proc.devRef .tc main_arg0) : FVec Ideal S256x1024x7x7 .f32)
            Facts₀.transposes_S256x1024x7x7_S7x7x256x1024_2_3_0_1)
          Facts₀.shapeCasts_S7x7x256x1024_S49x256x1024 := by
    show StableHlo.after hostOps0_3 (StableHlo.after hostOps0_2 (StableHlo.after hostOps0_1 (StableHlo.after hostOps0 W))) (Proc.devRef .tc main_v1) = _
    rfl
  rw [e, flattened_apply, transposed_apply]

theorem entry_arg1 (W : Valuation τ sig (Elt Ideal)) : entryOf W (Proc.devRef .tc main_arg1) = W (Proc.devRef .tc main_arg1) :=
  entry_keep W main_arg1 ⟨nw, nw, nw⟩ ⟨nw, nw⟩ nw ⟨nw, nw⟩
theorem entry_arg2 (W : Valuation τ sig (Elt Ideal)) : entryOf W (Proc.devRef .tc main_arg2) = W (Proc.devRef .tc main_arg2) :=
  entry_keep W main_arg2 ⟨nw, nw, nw⟩ ⟨nw, nw⟩ nw ⟨nw, nw⟩
theorem entry_arg3 (W : Valuation τ sig (Elt Ideal)) : entryOf W (Proc.devRef .tc main_arg3) = W (Proc.devRef .tc main_arg3) :=
  entry_keep W main_arg3 ⟨nw, nw, nw⟩ ⟨nw, nw⟩ nw ⟨nw, nw⟩
theorem entry_arg4 (W : Valuation τ sig (Elt Ideal)) : entryOf W (Proc.devRef .tc main_arg4) = W (Proc.devRef .tc main_arg4) :=
  entry_keep W main_arg4 ⟨nw, nw, nw⟩ ⟨nw, nw⟩ nw ⟨nw, nw⟩

/-- The padded last-layer weights and bias. -/
theorem entry_w3 (W : Valuation τ sig (Elt Ideal)) :
    (entryOf W (Proc.devRef .tc main_v2) : FVec Ideal S128x128 .f32)
      = pad S128x128 ![0, 0] ![0, 125] ![0, 0] (W (Proc.devRef .tc main_arg5) : FVec Ideal S128x3 .f32) padZero
          Facts₀.pads_S128x3_S128x128_000_01250 Facts₀.h_S_ := by
  show StableHlo.after hostOps0_3 (StableHlo.after hostOps0_2 (StableHlo.after hostOps0_1 (StableHlo.after hostOps0 W))) (Proc.devRef .tc main_v2) = _
  rfl
theorem entry_b3 (W : Valuation τ sig (Elt Ideal)) :
    (entryOf W (Proc.devRef .tc main_v3) : FVec Ideal S1x128 .f32)
      = pad S1x128 ![0, 0] ![0, 125] ![0, 0] (W (Proc.devRef .tc main_arg6) : FVec Ideal S1x3 .f32) padZero
          Facts₀.pads_S1x3_S1x128_000_01250 Facts₀.h_S_ := by
  show StableHlo.after hostOps0_3 (StableHlo.after hostOps0_2 (StableHlo.after hostOps0_1 (StableHlo.after hostOps0 W))) (Proc.devRef .tc main_v3) = _
  rfl

/-- After the region: the logits result is the first three columns of the padded logits array; the feature array is
    not touched. -/
theorem exit_l (W : Valuation τ sig (Elt Ideal)) (b : Fin 256) (j : Fin 3) :
    (StableHlo.after hostOps1 W (Proc.devRef .tc main_v5) : FVec Ideal S256x3 .f32) (ix2 b j)
      = (W (Proc.devRef .tc main_v4_1) : FVec Ideal S256x128 .f32) (ix2 b ⟨j.val, by omega⟩) := by
  have e : (StableHlo.after hostOps1 W (Proc.devRef .tc main_v5) : FVec Ideal S256x3 .f32)
      = extractStridedSlice S256x3 ![0, 0] (W (Proc.devRef .tc main_v4_1) : FVec Ideal S256x128 .f32) Facts₀.slices_S256x128_S256x3_0_0 := by
    after_results <;> rfl
  rw [e]
  exact slice2_axis1_apply 0 _ _ b j ⟨j.val, by omega⟩ (Nat.zero_add _).symm
theorem exit_f (W : Valuation τ sig (Elt Ideal)) :
    StableHlo.after hostOps1 W (Proc.devRef .tc main_v4_0) = W (Proc.devRef .tc main_v4_0) :=
  StableHlo.after_of_forall_not_mem (b := Proc.devRef .tc main_v4_0) _ _ (List.forall_iff_forall_mem.mp (show (hostOps1 (F := Ideal)).Forall _ from nw))

end Cert.KernelIdeal.Hand

end
-- ==== Proof.Out.lean ====
/-
  The two results of the classifier head as whole arrays, from the seven argument arrays: row `b` of the feature
  result is the normalised feature of input row `b`, and row `b` of the logits result the first three of its padded
  logits (Proof/Spec.lean). Input row `b` is, per channel `k`, the 49 values of the 7 x 7 map read row by row. The
  padded last-layer operands are parameters here: both programs build them by the same pad.
-/
import proofs.«133866_g2000702716457357_pallasbulk_1135_8_alg».proof.Proof.Spec
import Idealize.ShloMosaic.Lib.ValueIdx

noncomputable section

namespace Cert.Out

open Idealize.ShloMosaic Idealize.ShloMosaic.ValueIdx

/-- Input row `b`: channel `k`, spatial position `s = 7 h + w`. -/
def rowOf (X : (⟨4, ![256, 1024, 7, 7]⟩ : Shape).Idx → EReal) (b : Fin 256) : Fin 1024 → Fin 49 → EReal :=
  fun k s => X (ix4 b k ⟨s.val / 7, by omega⟩ ⟨s.val % 7, by omega⟩)

/-- The feature result. -/
def feat (X : (⟨4, ![256, 1024, 7, 7]⟩ : Shape).Idx → EReal) (W1 : (⟨2, ![1024, 512]⟩ : Shape).Idx → EReal)
    (B1 : (⟨2, ![1, 512]⟩ : Shape).Idx → EReal) (W2 : (⟨2, ![512, 128]⟩ : Shape).Idx → EReal)
    (B2 : (⟨2, ![1, 128]⟩ : Shape).Idx → EReal) : (⟨2, ![256, 128]⟩ : Shape).Idx → EReal :=
  fun i => Spec.feature (rowOf X (i 0)) (fun a b => W1 (ix2 a b)) (fun j => B1 (ix2 0 j))
    (fun a b => W2 (ix2 a b)) (fun j => B2 (ix2 0 j)) (i 1)

/-- The logits result: the first three padded logits of each row. -/
def logit (X : (⟨4, ![256, 1024, 7, 7]⟩ : Shape).Idx → EReal) (W1 : (⟨2, ![1024, 512]⟩ : Shape).Idx → EReal)
    (B1 : (⟨2, ![1, 512]⟩ : Shape).Idx → EReal) (W2 : (⟨2, ![512, 128]⟩ : Shape).Idx → EReal)
    (B2 : (⟨2, ![1, 128]⟩ : Shape).Idx → EReal) (W3 : (⟨2, ![128, 128]⟩ : Shape).Idx → EReal)
    (B3 : (⟨2, ![1, 128]⟩ : Shape).Idx → EReal) : (⟨2, ![256, 3]⟩ : Shape).Idx → EReal :=
  fun i => Spec.logits (rowOf X (i 0)) (fun a b => W1 (ix2 a b)) (fun j => B1 (ix2 0 j))
    (fun a b => W2 (ix2 a b)) (fun j => B2 (ix2 0 j)) (fun a b => W3 (ix2 a b)) (fun j => B3 (ix2 0 j))
    ⟨(i 1).val, Nat.lt_of_lt_of_le (idx2_lt1 i) (by decide)⟩

end Cert.Out

end
-- ==== Proof.KOut.lean ====
/-
  The fused kernel's two results as functions of its argument arrays, at the exact (extended-real) reading: at the
  return the feature result holds `Out.feat` and the logits result `Out.logit` of the launch contents of the seven
  arguments, the last layer's operands padded to 128 columns.
-/
import proofs.«133866_g2000702716457357_pallasbulk_1135_8_alg».proof.Proof.KRun
import proofs.«133866_g2000702716457357_pallasbulk_1135_8_alg».proof.Proof.KValue
import proofs.«133866_g2000702716457357_pallasbulk_1135_8_alg».proof.Proof.HostK
import proofs.«133866_g2000702716457357_pallasbulk_1135_8_alg».proof.Proof.Out

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The padded last-layer weights and bias, from the launch contents. -/
abbrev w3p (c : Dev nD) : FVec Ideal S128x128 .f32 :=
  pad S128x128 ![0, 0] ![0, 125] ![0, 0] (m ((c : Thread nD τ).loc main_arg5) : FVec Ideal S128x3 .f32) padZero
    Facts₀.pads_S128x3_S128x128_000_01250 Facts₀.h_S_
abbrev b3p (c : Dev nD) : FVec Ideal S1x128 .f32 :=
  pad S1x128 ![0, 0] ![0, 125] ![0, 0] (m ((c : Thread nD τ).loc main_arg6) : FVec Ideal S1x3 .f32) padZero
    Facts₀.pads_S1x3_S1x128_000_01250 Facts₀.h_S_

/-- Row `b` of the region's flattened view is row `b` of the input. -/
theorem xRow_eq (c : Dev nD) (b : Fin 256) :
    xRow (V4 (F := Ideal) m ρ) c b = Out.rowOf (m ((c : Thread nD τ).loc main_arg0)) b := by
  funext k s
  exact entry_x (W0 m ρ c) s b k

theorem aW1_eq (c : Dev nD) : aW1 (V4 (F := Ideal) m ρ) c = m ((c : Thread nD τ).loc main_arg1) := entry_arg1 (W0 m ρ c)
theorem aB1_eq (c : Dev nD) : aB1 (V4 (F := Ideal) m ρ) c = m ((c : Thread nD τ).loc main_arg2) := entry_arg2 (W0 m ρ c)
theorem aW2_eq (c : Dev nD) : aW2 (V4 (F := Ideal) m ρ) c = m ((c : Thread nD τ).loc main_arg3) := entry_arg3 (W0 m ρ c)
theorem aB2_eq (c : Dev nD) : aB2 (V4 (F := Ideal) m ρ) c = m ((c : Thread nD τ).loc main_arg4) := entry_arg4 (W0 m ρ c)
theorem aW3_eq (c : Dev nD) : aW3 (V4 (F := Ideal) m ρ) c = w3p m c := entry_w3 (W0 m ρ c)
theorem aB3_eq (c : Dev nD) : aB3 (V4 (F := Ideal) m ρ) c = b3p m c := entry_b3 (W0 m ρ c)

/-- The feature result at the return. -/
theorem out_f (c : Dev nD) :
    W6 (F := Ideal) m ρ c (Proc.devRef .tc main_v4_0)
      = Out.feat (m ((c : Thread nD τ).loc main_arg0)) (m ((c : Thread nD τ).loc main_arg1)) (m ((c : Thread nD τ).loc main_arg2))
          (m ((c : Thread nD τ).loc main_arg3)) (m ((c : Thread nD τ).loc main_arg4)) := by
  rw [show W6 (F := Ideal) m ρ c (Proc.devRef .tc main_v4_0) = W5 m ρ c (Proc.devRef .tc main_v4_0) from exit_f (W5 m ρ c), W5_v4_0]
  funext i
  obtain ⟨b, q, rfl⟩ : ∃ (b : Fin 256) (q : Fin 128), i = ix2 b q := ⟨i 0, i 1, eq_ix2 i⟩
  refine (final8 (V4 m ρ) c b q).trans ?_
  rw [xRow_eq, aW1_eq, aB1_eq, aW2_eq, aB2_eq]
  rfl

/-- The logits result at the return. -/
theorem out_l (c : Dev nD) :
    W6 (F := Ideal) m ρ c (Proc.devRef .tc main_v5)
      = Out.logit (m ((c : Thread nD τ).loc main_arg0)) (m ((c : Thread nD τ).loc main_arg1)) (m ((c : Thread nD τ).loc main_arg2))
          (m ((c : Thread nD τ).loc main_arg3)) (m ((c : Thread nD τ).loc main_arg4)) (w3p m c) (b3p m c) := by
  funext i
  obtain ⟨b, j, rfl⟩ : ∃ (b : Fin 256) (j : Fin 3), i = ix2 b j := ⟨i 0, i 1, eq_ix2 i⟩
  refine (exit_l (W5 m ρ c) b j).trans ?_
  rw [W5_v4_1]
  refine (final9 (V4 m ρ) c b ⟨j.val, by omega⟩).trans ?_
  rw [xRow_eq, aW1_eq, aB1_eq, aW2_eq, aB2_eq, aW3_eq, aB3_eq]
  rfl

end Cert.KernelIdeal.Hand

end
-- ==== Proof.RPay.lean ====
/-
  The reference kernels' stored values read at one element, at the exact (extended-real) reading: the pooling kernel's
  block at (p, k) is the sum over the 49 positions of its input block's row p, channel k, times the shared constant;
  the head kernel's two stored pieces at (p, q) are the normalised feature and the padded logits of row p of its
  pooled-feature input (Proof/Spec.lean).
-/
import proofs.«133866_g2000702716457357_pallasbulk_1135_8_alg».proof.Proof.Gen.ReferenceIdeal.Frame
import proofs.«133866_g2000702716457357_pallasbulk_1135_8_alg».proof.Proof.Spec
import proofs.«133866_g2000702716457357_pallasbulk_1135_8_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

/-- The offsets of a whole-buffer rectangle are all zero. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The pooling kernel's stored block at (p, k). -/
theorem gapBlk_apply (x0 : Vec Ideal S16x256x49 .f32) (p : Fin 16) (k : Fin 256) :
    k0_pay1 (F := Ideal) (View.ld x0 r0_0) (ix2 p k) = (∑ s : Fin 49, x0 (ix3 p k s)) * Spec.inv49 := by
  unfold k0_pay1
  simp only [View.ld_unit_zero (S := S16x256x49) hz3, shapeCast_self]
  rw [mulf_apply, broadcast_apply]
  refine congrArg (· * Spec.inv49) ?_
  refine (Ideal.multiReduction_add_single x0 0x00000000#32 reduces_S16x256x49_S16x256 (.inl rfl) rfl (ix2 p k)).trans ?_
  refine Finset.sum_congr rfl fun s _ => congrArg x0 (funext fun a => Fin.ext ?_)
  match a with
  | ⟨0, _⟩ => rfl
  | ⟨1, _⟩ => rfl
  | ⟨2, _⟩ => rfl

/-- The first product's operand indices, axis by axis. -/
theorem lhs1_0 (j : S256x512.Idx) (k : dot_S256x1024_S1024x512_S256x512_1_0_0_1_n_n.contr.Idx) :
    (dot_S256x1024_S1024x512_S256x512_1_0_0_1_n_n.lhsIdx j k 0 : ℕ) = j 0 := by
  simp [DotDims.lhsIdx, dot_S256x1024_S1024x512_S256x512_1_0_0_1_n_n]; rfl
theorem lhs1_1 (j : S256x512.Idx) (k : dot_S256x1024_S1024x512_S256x512_1_0_0_1_n_n.contr.Idx) :
    (dot_S256x1024_S1024x512_S256x512_1_0_0_1_n_n.lhsIdx j k 1 : ℕ) = k ⟨0, by decide⟩ :=
  dot_S256x1024_S1024x512_S256x512_1_0_0_1_n_n.lhsIdx_val_of_single rfl j k
theorem rhs1_0 (j : S256x512.Idx) (k : dot_S256x1024_S1024x512_S256x512_1_0_0_1_n_n.contr.Idx) :
    (dot_S256x1024_S1024x512_S256x512_1_0_0_1_n_n.rhsIdx j k 0 : ℕ) = k ⟨0, by decide⟩ :=
  dot_S256x1024_S1024x512_S256x512_1_0_0_1_n_n.rhsIdx_val_of_single rfl j k
theorem rhs1_1 (j : S256x512.Idx) (k : dot_S256x1024_S1024x512_S256x512_1_0_0_1_n_n.contr.Idx) :
    (dot_S256x1024_S1024x512_S256x512_1_0_0_1_n_n.rhsIdx j k 1 : ℕ) = j 1 := by
  simp [DotDims.rhsIdx, dot_S256x1024_S1024x512_S256x512_1_0_0_1_n_n]; rfl

/-- The first product into the zero block, at (p, j): the sum over the 1024 contracted positions. -/
theorem mm1_apply (A : FVec Ideal S256x1024 .f32) (B : FVec Ideal S1024x512 .f32) (p : Fin 256) (j : Fin 512) :
    matmul dot_S256x1024_S1024x512_S256x512_1_0_0_1_n_n none A B (constant (F := Ideal) S256x512 .f32 0x00000000#32) (ix2 p j)
      = ∑ i : Fin 1024, A (ix2 p i) * B (ix2 i j) := by
  refine (Ideal.matmul_constant_zero_apply _ _ A B (ix2 p j)).trans ?_
  rw [← Equiv.sum_comp (contrEquiv1 dot_S256x1024_S1024x512_S256x512_1_0_0_1_n_n 1024 rfl rfl).symm]
  refine Finset.sum_congr rfl fun i _ => ?_
  congr 2
  · funext a; apply Fin.ext
    match a with
    | ⟨0, _⟩ => exact lhs1_0 _ _
    | ⟨1, _⟩ => exact (lhs1_1 _ _).trans (contrEquiv1_symm_val _ 1024 rfl rfl i)
  · funext a; apply Fin.ext
    match a with
    | ⟨0, _⟩ => exact (rhs1_0 _ _).trans (contrEquiv1_symm_val _ 1024 rfl rfl i)
    | ⟨1, _⟩ => exact rhs1_1 _ _

/-- The second product's operand indices, axis by axis. -/
theorem lhs2_0 (j : S256x128.Idx) (k : dot_S256x512_S512x128_S256x128_1_0_0_1_n_n.contr.Idx) :
    (dot_S256x512_S512x128_S256x128_1_0_0_1_n_n.lhsIdx j k 0 : ℕ) = j 0 := by
  simp [DotDims.lhsIdx, dot_S256x512_S512x128_S256x128_1_0_0_1_n_n]; rfl
theorem lhs2_1 (j : S256x128.Idx) (k : dot_S256x512_S512x128_S256x128_1_0_0_1_n_n.contr.Idx) :
    (dot_S256x512_S512x128_S256x128_1_0_0_1_n_n.lhsIdx j k 1 : ℕ) = k ⟨0, by decide⟩ :=
  dot_S256x512_S512x128_S256x128_1_0_0_1_n_n.lhsIdx_val_of_single rfl j k
theorem rhs2_0 (j : S256x128.Idx) (k : dot_S256x512_S512x128_S256x128_1_0_0_1_n_n.contr.Idx) :
    (dot_S256x512_S512x128_S256x128_1_0_0_1_n_n.rhsIdx j k 0 : ℕ) = k ⟨0, by decide⟩ :=
  dot_S256x512_S512x128_S256x128_1_0_0_1_n_n.rhsIdx_val_of_single rfl j k
theorem rhs2_1 (j : S256x128.Idx) (k : dot_S256x512_S512x128_S256x128_1_0_0_1_n_n.contr.Idx) :
    (dot_S256x512_S512x128_S256x128_1_0_0_1_n_n.rhsIdx j k 1 : ℕ) = j 1 := by
  simp [DotDims.rhsIdx, dot_S256x512_S512x128_S256x128_1_0_0_1_n_n]; rfl

/-- The second product into the zero block, at (p, j): the sum over the 512 contracted positions. -/
theorem mm2_apply (A : FVec Ideal S256x512 .f32) (B : FVec Ideal S512x128 .f32) (p : Fin 256) (j : Fin 128) :
    matmul dot_S256x512_S512x128_S256x128_1_0_0_1_n_n none A B (constant (F := Ideal) S256x128 .f32 0x00000000#32) (ix2 p j)
      = ∑ i : Fin 512, A (ix2 p i) * B (ix2 i j) := by
  refine (Ideal.matmul_constant_zero_apply _ _ A B (ix2 p j)).trans ?_
  rw [← Equiv.sum_comp (contrEquiv1 dot_S256x512_S512x128_S256x128_1_0_0_1_n_n 512 rfl rfl).symm]
  refine Finset.sum_congr rfl fun i _ => ?_
  congr 2
  · funext a; apply Fin.ext
    match a with
    | ⟨0, _⟩ => exact lhs2_0 _ _
    | ⟨1, _⟩ => exact (lhs2_1 _ _).trans (contrEquiv1_symm_val _ 512 rfl rfl i)
  · funext a; apply Fin.ext
    match a with
    | ⟨0, _⟩ => exact (rhs2_0 _ _).trans (contrEquiv1_symm_val _ 512 rfl rfl i)
    | ⟨1, _⟩ => exact rhs2_1 _ _

/-- The third product's operand indices, axis by axis. -/
theorem lhs3_0 (j : S256x128.Idx) (k : dot_S256x128_S128x128_S256x128_1_0_0_1_n_n.contr.Idx) :
    (dot_S256x128_S128x128_S256x128_1_0_0_1_n_n.lhsIdx j k 0 : ℕ) = j 0 := by
  simp [DotDims.lhsIdx, dot_S256x128_S128x128_S256x128_1_0_0_1_n_n]; rfl
theorem lhs3_1 (j : S256x128.Idx) (k : dot_S256x128_S128x128_S256x128_1_0_0_1_n_n.contr.Idx) :
    (dot_S256x128_S128x128_S256x128_1_0_0_1_n_n.lhsIdx j k 1 : ℕ) = k ⟨0, by decide⟩ :=
  dot_S256x128_S128x128_S256x128_1_0_0_1_n_n.lhsIdx_val_of_single rfl j k
theorem rhs3_0 (j : S256x128.Idx) (k : dot_S256x128_S128x128_S256x128_1_0_0_1_n_n.contr.Idx) :
    (dot_S256x128_S128x128_S256x128_1_0_0_1_n_n.rhsIdx j k 0 : ℕ) = k ⟨0, by decide⟩ :=
  dot_S256x128_S128x128_S256x128_1_0_0_1_n_n.rhsIdx_val_of_single rfl j k
theorem rhs3_1 (j : S256x128.Idx) (k : dot_S256x128_S128x128_S256x128_1_0_0_1_n_n.contr.Idx) :
    (dot_S256x128_S128x128_S256x128_1_0_0_1_n_n.rhsIdx j k 1 : ℕ) = j 1 := by
  simp [DotDims.rhsIdx, dot_S256x128_S128x128_S256x128_1_0_0_1_n_n]; rfl

/-- The third product into the zero block, at (p, j): the sum over the 128 contracted positions. -/
theorem mm3_apply (A : FVec Ideal S256x128 .f32) (B : FVec Ideal S128x128 .f32) (p : Fin 256) (j : Fin 128) :
    matmul dot_S256x128_S128x128_S256x128_1_0_0_1_n_n none A B (constant (F := Ideal) S256x128 .f32 0x00000000#32) (ix2 p j)
      = ∑ i : Fin 128, A (ix2 p i) * B (ix2 i j) := by
  refine (Ideal.matmul_constant_zero_apply _ _ A B (ix2 p j)).trans ?_
  rw [← Equiv.sum_comp (contrEquiv1 dot_S256x128_S128x128_S256x128_1_0_0_1_n_n 128 rfl rfl).symm]
  refine Finset.sum_congr rfl fun i _ => ?_
  congr 2
  · funext a; apply Fin.ext
    match a with
    | ⟨0, _⟩ => exact lhs3_0 _ _
    | ⟨1, _⟩ => exact (lhs3_1 _ _).trans (contrEquiv1_symm_val _ 128 rfl rfl i)
  · funext a; apply Fin.ext
    match a with
    | ⟨0, _⟩ => exact (rhs3_0 _ _).trans (contrEquiv1_symm_val _ 128 rfl rfl i)
    | ⟨1, _⟩ => exact rhs3_1 _ _

/-- The reciprocal square root at an index is that of the element. -/
theorem rsqrt_apply {s : Shape} {φ : FTy} (a : FVec Ideal s φ) (i : s.Idx) : rsqrt a i = Ideal.rsqrt (a i) := rfl

/-- The first affine layer and its ReLU, on any 256-row block, at (p, j). -/
theorem layer1_apply (A : FVec Ideal S256x1024 .f32) (W : FVec Ideal S1024x512 .f32) (b : FVec Ideal S1x512 .f32)
    (p : Fin 256) (j : Fin 512) :
    maximumf (addf (matmul dot_S256x1024_S1024x512_S256x512_1_0_0_1_n_n none A W (constant (F := Ideal) S256x512 .f32 0x00000000#32))
        (broadcastTo S256x512 b broadcasts_S1x512_S256x512))
      (broadcast S256x512 (Scalar.ofBits (F := Ideal) .f32 0x00000000#32)) (ix2 p j)
      = Spec.layer (fun k => A (ix2 p k)) (fun i j => W (ix2 i j)) (fun j => b (ix2 0 j)) j := by
  rw [maximumf_apply, addf_apply, broadcast_apply, mm1_apply, broadcastTo_1b_ab_apply]
  rfl

/-- The second affine layer and its ReLU, at (p, j). -/
theorem layer2_apply (A : FVec Ideal S256x512 .f32) (W : FVec Ideal S512x128 .f32) (b : FVec Ideal S1x128 .f32)
    (p : Fin 256) (j : Fin 128) :
    maximumf (addf (matmul dot_S256x512_S512x128_S256x128_1_0_0_1_n_n none A W (constant (F := Ideal) S256x128 .f32 0x00000000#32))
        (broadcastTo S256x128 b broadcasts_S1x128_S256x128))
      (broadcast S256x128 (Scalar.ofBits (F := Ideal) .f32 0x00000000#32)) (ix2 p j)
      = Spec.layer (fun k => A (ix2 p k)) (fun i j => W (ix2 i j)) (fun j => b (ix2 0 j)) j := by
  rw [maximumf_apply, addf_apply, broadcast_apply, mm2_apply, broadcastTo_1b_ab_apply]
  rfl

/-- A block's rows scaled to unit length, as the head kernel spells it (the squared length summed along the lanes, kept
    as a column, floored, its reciprocal square root broadcast back along the lanes), at (p, q). -/
theorem unit_apply (H : FVec Ideal S256x128 .f32) (p : Fin 256) (q : Fin 128) :
    mulf H (broadcastTo S256x128
        (rsqrt (maximumf
          (shapeCast S256x1 (multiReduction (F := Ideal) .add [1] S256 (mulf H H) 0x00000000#32 reduces_S256x128_S256 (.inl rfl) rfl) shapeCasts_S256_S256x1)
          (broadcast S256x1 (Scalar.ofBits (F := Ideal) .f32 0x179ABE15#32))))
        broadcasts_S256x1_S256x128) (ix2 p q)
      = Spec.unit (fun j => H (ix2 p j)) q := by
  rw [mulf_apply, Cert.LibKeepdims.broadcastTo_a1_ab_apply, rsqrt_apply, maximumf_apply, broadcast_apply,
    Cert.LibKeepdims.shapeCast_a_a1_apply]
  unfold Spec.unit
  refine congrArg (fun t => H (ix2 p q) * Ideal.rsqrt (max t Spec.eps)) ?_
  refine (Ideal.multiReduction_add_single (mulf H H) 0x00000000#32 reduces_S256x128_S256 (.inl rfl) rfl (ix1 p)).trans ?_
  refine Finset.sum_congr rfl fun i _ => ?_
  rw [mulf_apply]
  have e : reduces_S256x128_S256.lift (ix1 p) i = ix2 p i := funext fun a => Fin.ext (by
    match a with
    | ⟨0, _⟩ => rfl
    | ⟨1, _⟩ => rfl)
  rw [e]
  rfl

/-- Both ReLU layers of row `p` of the head kernel's input. -/
def hiddenBlk (x0 : Vec Ideal S256x1024 .f32) (x1 : Vec Ideal S1024x512 .f32) (x2 : Vec Ideal S1x512 .f32)
    (x3 : Vec Ideal S512x128 .f32) (x4 : Vec Ideal S1x128 .f32) (p : Fin 256) : Fin 128 → EReal :=
  Spec.layer (Spec.layer (fun k => x0 (ix2 p k)) (fun i j => x1 (ix2 i j)) (fun j => x2 (ix2 0 j)))
    (fun i j => x3 (ix2 i j)) (fun j => x4 (ix2 0 j))

/-- The head kernel's first stored piece (the normalised feature) at (p, q). -/
theorem headF_apply (x0 : Vec Ideal S256x1024 .f32) (x1 : Vec Ideal S1024x512 .f32) (x2 : Vec Ideal S1x512 .f32)
    (x3 : Vec Ideal S512x128 .f32) (x4 : Vec Ideal S1x128 .f32) (p : Fin 256) (q : Fin 128) :
    k1_pay1 (F := Ideal) (View.ld x0 r1_0) (View.ld x1 r1_1) (View.ld x2 r1_2) (View.ld x3 r1_3) (View.ld x4 r1_4) (ix2 p q)
      = Spec.unit (hiddenBlk x0 x1 x2 x3 x4 p) q := by
  unfold k1_pay1
  simp only [View.ld_unit_zero (S := S256x1024) hz2, View.ld_unit_zero (S := S1024x512) hz2, View.ld_unit_zero (S := S1x512) hz2,
    View.ld_unit_zero (S := S512x128) hz2, View.ld_unit_zero (S := S1x128) hz2, shapeCast_self]
  refine (unit_apply _ p q).trans ?_
  simp only [layer2_apply, layer1_apply]
  rfl

/-- The head kernel's second stored piece (the padded logits) at (p, q). -/
theorem headL_apply (x0 : Vec Ideal S256x1024 .f32) (x1 : Vec Ideal S1024x512 .f32) (x2 : Vec Ideal S1x512 .f32)
    (x3 : Vec Ideal S512x128 .f32) (x4 : Vec Ideal S1x128 .f32) (x5 : Vec Ideal S128x128 .f32) (x6 : Vec Ideal S1x128 .f32)
    (p : Fin 256) (q : Fin 128) :
    k1_pay2 (F := Ideal) (View.ld x0 r1_0) (View.ld x1 r1_1) (View.ld x2 r1_2) (View.ld x3 r1_3) (View.ld x4 r1_4) (View.ld x5 r1_5) (View.ld x6 r1_4) (ix2 p q)
      = Spec.affine (Spec.unit (hiddenBlk x0 x1 x2 x3 x4 p)) (fun i j => x5 (ix2 i j)) (fun j => x6 (ix2 0 j)) q := by
  unfold k1_pay2
  simp only [shapeCast_self]
  rw [addf_apply, mm3_apply, broadcastTo_1b_ab_apply]
  simp only [headF_apply]
  rw [View.ld_unit_zero (S := S128x128) hz2, View.ld_unit_zero (S := S1x128) hz2]
  rfl

end Cert.ReferenceIdeal.Hand

end
-- ==== Proof.RValue.lean ====
/-
  What the reference's two kernel regions leave in their output arrays, at the exact (extended-real) reading.
  The pooling region (grid 16 x 4 x 1, blocks of 16 rows by 256 channels by all 49 positions) leaves the pooled
  feature: entry (b, k) is the sum of row b's channel k over the 49 positions, times the shared constant. The head
  region (one grid point, the whole 256-row batch) leaves a 256 x 256 array whose columns 0..127 hold each row's
  normalised feature and columns 128..255 its padded logits — the functions of Proof/Spec.lean applied to that row.
-/
import proofs.«133866_g2000702716457357_pallasbulk_1135_8_alg».proof.Proof.Gen.ReferenceIdeal.Frame
import proofs.«133866_g2000702716457357_pallasbulk_1135_8_alg».proof.Proof.RPay
import proofs.«133866_g2000702716457357_pallasbulk_1135_8_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.Hand

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- A region's input arrays on core `c`, each at its literal type. -/
abbrev xFlat (c : Dev nD) : FVec Ideal S256x1024x49 .f32 := V c main_v0
abbrev aFeat (c : Dev nD) : FVec Ideal S256x1024 .f32 := V c main_v1
abbrev aW1 (c : Dev nD) : FVec Ideal S1024x512 .f32 := V c main_arg1
abbrev aB1 (c : Dev nD) : FVec Ideal S1x512 .f32 := V c main_arg2
abbrev aW2 (c : Dev nD) : FVec Ideal S512x128 .f32 := V c main_arg3
abbrev aB2 (c : Dev nD) : FVec Ideal S1x128 .f32 := V c main_arg4
abbrev aW3 (c : Dev nD) : FVec Ideal S128x128 .f32 := V c main_v2
abbrev aB3 (c : Dev nD) : FVec Ideal S1x128 .f32 := V c main_v3

/-- Row `b` of the flattened input: channel `k`, spatial position `s`. -/
def xRow (c : Dev nD) (b : Fin 256) : Fin 1024 → Fin 49 → EReal := fun k s => xFlat V c (ix3 b k s)

namespace Arr

/-- The zero offsets of a rank-2 buffer, however spelt. -/
theorem hz2 : (![0, 0] : Fin 2 → Nat) = fun _ => 0 := funext fun a => by fin_cases a <;> rfl

/-- The pooled array as one function of the flattened input: entry `i` is the sum over the 49 positions of row `i 0`,
    channel `i 1`, times the shared constant. -/
def gapArr (c : Dev nD) : S256x1024.Idx → EReal := fun i =>
  (∑ s : Fin 49, xFlat V c (ix3 (n0 := 256) (n1 := 1024) (i 0) (i 1) s)) * Spec.inv49

/-- The two windows' block indices over the grid: the input's block moves with the output's on the first two axes
    and stays at 0 on the third; the output's block indices stay in their ranges. -/
theorem gap_idx : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 15 ∧ win0_1.index t (1 : Fin 2) ≤ 3 :=
  (by decide +kernel : ∀ t : Fin grid0.N, _)

/-- Every block of the pooled array is some grid point's. -/
theorem gap_onto : ∀ (q0 : Fin 16) (q1 : Fin 4), ∃ t : Fin cfg0.N, win0_1.index t = ![q0.val, q1.val] :=
  (by decide +kernel : ∀ (q0 : Fin 16) (q1 : Fin 4), ∃ t : Fin grid0.N, win0_1.index t = ![q0.val, q1.val])

/-- One element of the stored block, when the input block's row is a row of an array `A`. -/
theorem gapBlk_at (x0 : Vec Ideal S16x256x49 .f32) (A : FVec Ideal S256x1024x49 .f32) (j : S16x256.Idx) (i : S256x1024.Idx)
    (hx : ∀ s : Fin 49, x0 (ix3 (n0 := 16) (n1 := 256) (j 0) (j 1) s) = A (ix3 (n0 := 256) (n1 := 1024) (i 0) (i 1) s)) :
    k0_pay1 (F := Ideal) (View.ld x0 r0_0) j = (∑ s : Fin 49, A (ix3 (n0 := 256) (n1 := 1024) (i 0) (i 1) s)) * Spec.inv49 := by
  refine (congrArg (k0_pay1 (F := Ideal) (View.ld x0 r0_0)) (eq_ix2 j)).trans ?_
  refine (gapBlk_apply x0 (j 0) (j 1)).trans ?_
  exact congrArg (· * Spec.inv49) (Finset.sum_congr rfl fun s _ => hx s)

/-- What grid point `t` writes back is its block of `gapArr`. -/
theorem gap_flushed (c : Dev nD) (t : Fin cfg0.N) :
    (dat0 V c).flushed 1 t = ((cfg0.win 1).blk t).view.read (Elt Ideal) (gapArr V c) := by
  show (cfg0.win 1).cut (grid0.coords t) ((dat0 V c).after 1 t) = _
  rw [after0_1]
  unfold out0_1
  rw [View.canon_unit_zero hz2]
  obtain ⟨e0, e1, e2, -, -⟩ := gap_idx t
  funext j
  refine (gapBlk_at (iblk0 V c 0 t) (xFlat V c) j (((cfg0.win 1).blk t).view.emb j) fun s => ?_).trans ?_
  · show V c main_v0 (((cfg0.win 0).blk t).view.emb (ix3 (n0 := 16) (n1 := 256) (j 0) (j 1) s)) = V c main_v0 _
    congr 1
    funext a; apply Fin.ext
    match a with
    | ⟨0, _⟩ => show win0_0.index t (0 : Fin 3) * 16 + 1 * (j 0).val = win0_1.index t (0 : Fin 2) * 16 + 1 * (j 0).val; omega
    | ⟨1, _⟩ => show win0_0.index t (1 : Fin 3) * 256 + 1 * (j 1).val = win0_1.index t (1 : Fin 2) * 256 + 1 * (j 1).val; omega
    | ⟨2, _⟩ => show win0_0.index t (2 : Fin 3) * 49 + 1 * s.val = s.val; omega
  · rfl

/-- An index of the pooled array is in point `t`'s block iff each coordinate is in the block's range on its axis. -/
theorem gap_mem_blk (t : Fin cfg0.N) (i : S256x1024.Idx) :
    i ∈ ((cfg0.win 1).blk t).view.set ↔ ∀ a : Fin 2, win0_1.index t a * S16x256.size a ≤ (i a).val ∧ (i a).val < win0_1.index t a * S16x256.size a + S16x256.size a := by
  show i ∈ ((View.whole main_v1).slice (win0_1.rect t)).set ↔ _
  rw [View.set_slice_whole, Rect.mem_set_unit]
  exact Iff.rfl

/-- The blocks fill the pooled array. -/
theorem gap_cover (i : S256x1024.Idx) : ∃ t : Fin cfg0.N, (cfg0.win 1).flush t = true ∧ i ∈ ((cfg0.win 1).blk t).view.set := by
  have hi0 : (i 0).val < 256 := (i 0).isLt
  have hi1 : (i 1).val < 1024 := (i 1).isLt
  obtain ⟨t, ht⟩ := gap_onto ⟨(i 0).val / 16, by omega⟩ ⟨(i 1).val / 256, by omega⟩
  have q0 : win0_1.index t (0 : Fin 2) = (i 0).val / 16 := congrFun ht 0
  have q1 : win0_1.index t (1 : Fin 2) = (i 1).val / 256 := congrFun ht 1
  refine ⟨t, flush0_1 t, ?_⟩
  rw [gap_mem_blk]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 256 ≤ (i 1).val ∧ (i 1).val < win0_1.index t (1 : Fin 2) * 256 + 256; omega

/-- The pooled array after region 0 is `gapArr` of the contents the region is entered with. -/
theorem gap_arr (c : Dev nD) : (dat0 V c).arrAt 1 cfg0.N = gapArr V c :=
  (dat0 V c).arrAt_eq_of_cover 1 (gapArr V c) (fun t _ => gap_flushed V c t) (gap_cover)

end Arr

/-- The pooled feature array after region 0 (entered at contents `V`). -/
theorem gap_final (c : Dev nD) (b : Fin 256) (k : Fin 1024) :
    ((dat0 V c).arrAt 1 cfg0.N : FVec Ideal S256x1024 .f32) (ix2 b k) = Spec.pool (xRow V c b) k := by
  rw [Arr.gap_arr]
  rfl

/-- The head's intermediate row: both ReLU layers of row `b` of the pooled feature region 1 is entered with. -/
def hidden (c : Dev nD) (b : Fin 256) : Fin 128 → EReal :=
  Spec.layer (Spec.layer (fun k => aFeat V c (ix2 b k)) (fun i j => aW1 V c (ix2 i j)) (fun j => aB1 V c (ix2 0 j)))
    (fun i j => aW2 V c (ix2 i j)) (fun j => aB2 V c (ix2 0 j))

namespace Arr

/-! ## The head region: one grid point, every window's block its whole array -/

/-- At the one grid point every window's block index is 0 on both axes. -/
theorem head_idx : ∀ t : Fin cfg1.N,
    (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0) :=
  (by decide +kernel : ∀ t : Fin grid1.N, _)

/-- Each input window's block at the grid point is its whole array. -/
theorem head_blk0 (c : Dev nD) (t : Fin cfg1.N) : iblk1 V c 0 t = aFeat V c := by
  obtain ⟨⟨e0, e1⟩, -⟩ := head_idx t
  funext y
  show V c main_v1 (((cfg1.win 0).blk t).view.emb y) = V c main_v1 y
  congr 1
  funext a; apply Fin.ext
  match a with
  | ⟨0, _⟩ => show win1_0.index t (0 : Fin 2) * 256 + 1 * (y 0).val = (y 0).val; omega
  | ⟨1, _⟩ => show win1_0.index t (1 : Fin 2) * 1024 + 1 * (y 1).val = (y 1).val; omega
theorem head_blk1 (c : Dev nD) (t : Fin cfg1.N) : iblk1 V c 1 t = aW1 V c := by
  obtain ⟨-, ⟨e0, e1⟩, -⟩ := head_idx t
  funext y
  show V c main_arg1 (((cfg1.win 1).blk t).view.emb y) = V c main_arg1 y
  congr 1
  funext a; apply Fin.ext
  match a with
  | ⟨0, _⟩ => show win1_1.index t (0 : Fin 2) * 1024 + 1 * (y 0).val = (y 0).val; omega
  | ⟨1, _⟩ => show win1_1.index t (1 : Fin 2) * 512 + 1 * (y 1).val = (y 1).val; omega
theorem head_blk2 (c : Dev nD) (t : Fin cfg1.N) : iblk1 V c 2 t = aB1 V c := by
  obtain ⟨-, -, ⟨e0, e1⟩, -⟩ := head_idx t
  funext y
  show V c main_arg2 (((cfg1.win 2).blk t).view.emb y) = V c main_arg2 y
  congr 1
  funext a; apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega
theorem head_blk3 (c : Dev nD) (t : Fin cfg1.N) : iblk1 V c 3 t = aW2 V c := by
  obtain ⟨-, -, -, ⟨e0, e1⟩, -⟩ := head_idx t
  funext y
  show V c main_arg3 (((cfg1.win 3).blk t).view.emb y) = V c main_arg3 y
  congr 1
  funext a; apply Fin.ext
  match a with
  | ⟨0, _⟩ => show win1_3.index t (0 : Fin 2) * 512 + 1 * (y 0).val = (y 0).val; omega
  | ⟨1, _⟩ => show win1_3.index t (1 : Fin 2) * 128 + 1 * (y 1).val = (y 1).val; omega
theorem head_blk4 (c : Dev nD) (t : Fin cfg1.N) : iblk1 V c 4 t = aB2 V c := by
  obtain ⟨-, -, -, -, ⟨e0, e1⟩, -⟩ := head_idx t
  funext y
  show V c main_arg4 (((cfg1.win 4).blk t).view.emb y) = V c main_arg4 y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem head_blk5 (c : Dev nD) (t : Fin cfg1.N) : iblk1 V c 5 t = aW3 V c := by
  obtain ⟨-, -, -, -, -, ⟨e0, e1⟩, -⟩ := head_idx t
  funext y
  show V c main_v2 (((cfg1.win 5).blk t).view.emb y) = V c main_v2 y
  congr 1
  funext a; apply Fin.ext
  match a with
  | ⟨0, _⟩ => show win1_5.index t (0 : Fin 2) * 128 + 1 * (y 0).val = (y 0).val; omega
  | ⟨1, _⟩ => show win1_5.index t (1 : Fin 2) * 128 + 1 * (y 1).val = (y 1).val; omega
theorem head_blk6 (c : Dev nD) (t : Fin cfg1.N) : iblk1 V c 6 t = aB3 V c := by
  obtain ⟨-, -, -, -, -, -, ⟨e0, e1⟩, -⟩ := head_idx t
  funext y
  show V c main_v3 (((cfg1.win 6).blk t).view.emb y) = V c main_v3 y
  congr 1
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- The packed output as one function of the arrays region 1 is entered with: the two stored pieces over the whole arrays. -/
def headArr (c : Dev nD) : Vec Ideal S256x256 .f32 :=
  out1_7 (aFeat V c) (aW1 V c) (aB1 V c) (aW2 V c) (aB2 V c) (aW3 V c) (aB3 V c)

/-- What the grid point writes back is its block (the whole array) of `headArr`. -/
theorem head_flushed (c : Dev nD) (t : Fin cfg1.N) :
    (dat1 V c).flushed 7 t = ((cfg1.win 7).blk t).view.read (Elt Ideal) (headArr V c) := by
  show (cfg1.win 7).cut (grid1.coords t) ((dat1 V c).after 7 t) = _
  rw [after1_7, head_blk0, head_blk1, head_blk2, head_blk3, head_blk4, head_blk5, head_blk6]
  obtain ⟨-, -, -, -, -, -, -, ⟨e0, e1⟩⟩ := head_idx t
  funext y
  show headArr V c y = headArr V c (((cfg1.win 7).blk t).view.emb y)
  congr 1
  funext a; apply Fin.ext
  match a with
  | ⟨0, _⟩ => show (y 0).val = win1_7.index t (0 : Fin 2) * 256 + 1 * (y 0).val; omega
  | ⟨1, _⟩ => show (y 1).val = win1_7.index t (1 : Fin 2) * 256 + 1 * (y 1).val; omega

/-- An index of the packed output is in point `t`'s block iff each coordinate is in the block's range on its axis. -/
theorem head_mem_blk (t : Fin cfg1.N) (i : S256x256.Idx) :
    i ∈ ((cfg1.win 7).blk t).view.set ↔ ∀ a : Fin 2, win1_7.index t a * S256x256.size a ≤ (i a).val ∧ (i a).val < win1_7.index t a * S256x256.size a + S256x256.size a := by
  show i ∈ ((View.whole main_v4).slice (win1_7.rect t)).set ↔ _
  rw [View.set_slice_whole, Rect.mem_set_unit]
  exact Iff.rfl

/-- The one block fills the packed output. -/
theorem head_cover (i : S256x256.Idx) : ∃ t : Fin cfg1.N, (cfg1.win 7).flush t = true ∧ i ∈ ((cfg1.win 7).blk t).view.set := by
  have hi0 : (i 0).val < 256 := (i 0).isLt
  have hi1 : (i 1).val < 256 := (i 1).isLt
  have t : Fin cfg1.N := ⟨0, by decide⟩
  obtain ⟨-, -, -, -, -, -, -, ⟨e0, e1⟩⟩ := head_idx t
  refine ⟨t, flush1_7 t, ?_⟩
  rw [head_mem_blk]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 256 ≤ (i 1).val ∧ (i 1).val < win1_7.index t (1 : Fin 2) * 256 + 256; omega

/-- The packed output after region 1 is `headArr` of the contents the region is entered with. -/
theorem head_arr (c : Dev nD) : (dat1 V c).arrAt 7 cfg1.N = headArr V c :=
  (dat1 V c).arrAt_eq_of_cover 7 (headArr V c) (fun t _ => head_flushed V c t) (head_cover)

end Arr

/-- Columns 0..127 of the packed output after region 1 (entered at contents `V`): the normalised feature. -/
theorem head_final_f (c : Dev nD) (b : Fin 256) (q : Fin 128) :
    ((dat1 V c).arrAt 7 cfg1.N : FVec Ideal S256x256 .f32) (ix2 b ⟨q.val, by omega⟩) = Spec.unit (hidden V c b) q := by
  rw [Arr.head_arr]
  have hq := q.isLt
  have hnot : (ix2 b (⟨q.val, by omega⟩ : Fin 256) : S256x256.Idx) ∉ r1_7.set := by
    rw [Rect.mem_set_unit]
    intro h
    have h1 : 128 ≤ q.val := (h 1).1
    omega
  have e : (ix2 b (⟨q.val, by omega⟩ : Fin 256) : S256x256.Idx) = r1_6.emb (ix2 b q) := by
    funext a; apply Fin.ext
    match a with
    | ⟨0, _⟩ => show b.val = 0 + 1 * b.val; omega
    | ⟨1, _⟩ => show q.val = 0 + 1 * q.val; omega
  unfold Arr.headArr out1_7
  rw [View.canon_cons_of_not_mem ⟨r1_7, _⟩ _ hnot]
  refine (congrArg _ e).trans ?_
  refine (View.canon_cons_emb r1_6 _ [] (ix2 b q)).trans ?_
  exact headF_apply _ _ _ _ _ b q

/-- Columns 128..255: the padded logits. -/
theorem head_final_l (c : Dev nD) (b : Fin 256) (q : Fin 128) :
    ((dat1 V c).arrAt 7 cfg1.N : FVec Ideal S256x256 .f32) (ix2 b ⟨128 + q.val, by omega⟩)
      = Spec.affine (Spec.unit (hidden V c b)) (fun i j => aW3 V c (ix2 i j)) (fun j => aB3 V c (ix2 0 j)) q := by
  rw [Arr.head_arr]
  have hq := q.isLt
  have e : (ix2 b (⟨128 + q.val, by omega⟩ : Fin 256) : S256x256.Idx) = r1_7.emb (ix2 b q) := by
    funext a; apply Fin.ext
    match a with
    | ⟨0, _⟩ => show b.val = 0 + 1 * b.val; omega
    | ⟨1, _⟩ => show 128 + q.val = 128 + 1 * q.val; omega
  unfold Arr.headArr out1_7
  refine (congrArg _ e).trans ?_
  refine (View.canon_cons_emb r1_7 _ _ (ix2 b q)).trans ?_
  exact headL_apply _ _ _ _ _ _ _ b q

end Cert.ReferenceIdeal.Hand

end
-- ==== Proof.HostR.lean ====
/-
  The reference program's host operations around its two regions, read at the exact (extended-real) instance: the
  flattened input the pooling region reads, (b, k, 7h + w) from (b, k, h, w); between the regions the pooled feature
  and the first two layers' weights and biases are untouched while the last layer's weights and bias are padded with
  the converted integer zero to 128 columns; after the head region the two results are columns 0..127 and 128..130 of
  its packed output.
-/
import proofs.«133866_g2000702716457357_pallasbulk_1135_8_alg».proof.Proof.Gen.ReferenceIdeal.Launch
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

/-- A reference other than the one an operation writes is not among that operation's written references. -/
theorem not_mem_single {x y : Ref sig .tc} (h : x ≠ y) :
    Proc.devRef (τ := τ) .tc x ∉ ({Proc.devRef .tc y} : Finset (DevRef τ sig)) :=
  fun hm => StableHlo.devRef_ne_of_ne h (Finset.mem_singleton.mp hm)

local macro "nw" : term => `(not_mem_single (by decide))

/-- The flattening of the two spatial axes read at an index: position s is row s / 7, column s % 7. -/
theorem flattened_apply (x : FVec Ideal S256x1024x7x7 .f32) (b : Fin 256) (k : Fin 1024) (s : Fin 49) :
    shapeCast S256x1024x49 x Facts₀.shapeCasts_S256x1024x7x7_S256x1024x49 (ix3 b k s)
      = x (ix4 b k (⟨s.val / 7, by omega⟩ : Fin 7) (⟨s.val % 7, by omega⟩ : Fin 7)) :=
  shapeCast_apply x _ _ _ (by
    rw [Shape.rowMajor_val_four, Shape.rowMajor_val_three]
    show ((b.val * 1024 + k.val) * 7 + s.val / 7) * 7 + s.val % 7 = (b.val * 1024 + k.val) * 49 + s.val
    omega)

/-- The flattened input at (b, k, s) is the input at (b, k, s / 7, s % 7). -/
theorem flat_x (W : Valuation τ sig (Elt Ideal)) (b : Fin 256) (k : Fin 1024) (s : Fin 49) :
    (StableHlo.after hostOps0 W (Proc.devRef .tc main_v0) : FVec Ideal S256x1024x49 .f32) (ix3 b k s)
      = (W (Proc.devRef .tc main_arg0) : FVec Ideal S256x1024x7x7 .f32) (ix4 b k ⟨s.val / 7, by omega⟩ ⟨s.val % 7, by omega⟩) := by
  have e : (StableHlo.after hostOps0 W (Proc.devRef .tc main_v0) : FVec Ideal S256x1024x49 .f32)
      = shapeCast S256x1024x49 (W (Proc.devRef .tc main_arg0) : FVec Ideal S256x1024x7x7 .f32)
          Facts₀.shapeCasts_S256x1024x7x7_S256x1024x49 := by
    after_results <;> rfl
  rw [e, flattened_apply]

/-- The four host stretches between the regions. -/
abbrev midOf (W : Valuation τ sig (Elt Ideal)) : Valuation τ sig (Elt Ideal) :=
  StableHlo.after hostOps1_3 (StableHlo.after hostOps1_2 (StableHlo.after hostOps1_1 (StableHlo.after hostOps1 W)))

/-- The converted integer zero both pads fill with. -/
abbrev padZero : FVec Ideal S_ .f32 := sitofp .f32 (constantI S_ 32 0#32)

/-- A reference none of the four stretches between the regions writes holds after them what it held before. -/
theorem mid_keep (W : Valuation τ sig (Elt Ideal)) (r : Ref sig .tc)
    (h0 : (hostOps1 (F := Ideal)).Forall fun op => Proc.devRef (τ := τ) .tc r ∉ op.writes)
    (h1 : (hostOps1_1 (F := Ideal)).Forall fun op => Proc.devRef (τ := τ) .tc r ∉ op.writes)
    (h2 : (hostOps1_2 (F := Ideal)).Forall fun op => Proc.devRef (τ := τ) .tc r ∉ op.writes)
    (h3 : (hostOps1_3 (F := Ideal)).Forall fun op => Proc.devRef (τ := τ) .tc r ∉ op.writes) :
    midOf W (Proc.devRef .tc r) = W (Proc.devRef .tc r) :=
  (StableHlo.after_of_forall_not_mem (b := Proc.devRef .tc r) hostOps1_3 _ (List.forall_iff_forall_mem.mp h3)).trans
    ((StableHlo.after_of_forall_not_mem (b := Proc.devRef .tc r) hostOps1_2 _ (List.forall_iff_forall_mem.mp h2)).trans
      ((StableHlo.after_of_forall_not_mem (b := Proc.devRef .tc r) hostOps1_1 _ (List.forall_iff_forall_mem.mp h1)).trans
        (StableHlo.after_of_forall_not_mem (b := Proc.devRef .tc r) hostOps1 W (List.forall_iff_forall_mem.mp h0))))

theorem mid_v1 (W : Valuation τ sig (Elt Ideal)) : midOf W (Proc.devRef .tc main_v1) = W (Proc.devRef .tc main_v1) :=
  mid_keep W main_v1 nw ⟨nw, nw⟩ nw ⟨nw, nw⟩
theorem mid_arg1 (W : Valuation τ sig (Elt Ideal)) : midOf W (Proc.devRef .tc main_arg1) = W (Proc.devRef .tc main_arg1) :=
  mid_keep W main_arg1 nw ⟨nw, nw⟩ nw ⟨nw, nw⟩
theorem mid_arg2 (W : Valuation τ sig (Elt Ideal)) : midOf W (Proc.devRef .tc main_arg2) = W (Proc.devRef .tc main_arg2) :=
  mid_keep W main_arg2 nw ⟨nw, nw⟩ nw ⟨nw, nw⟩
theorem mid_arg3 (W : Valuation τ sig (Elt Ideal)) : midOf W (Proc.devRef .tc main_arg3) = W (Proc.devRef .tc main_arg3) :=
  mid_keep W main_arg3 nw ⟨nw, nw⟩ nw ⟨nw, nw⟩
theorem mid_arg4 (W : Valuation τ sig (Elt Ideal)) : midOf W (Proc.devRef .tc main_arg4) = W (Proc.devRef .tc main_arg4) :=
  mid_keep W main_arg4 nw ⟨nw, nw⟩ nw ⟨nw, nw⟩
theorem mid_w3 (W : Valuation τ sig (Elt Ideal)) :
    (midOf W (Proc.devRef .tc main_v2) : FVec Ideal S128x128 .f32)
      = pad S128x128 ![0, 0] ![0, 125] ![0, 0] (W (Proc.devRef .tc main_arg5) : FVec Ideal S128x3 .f32) padZero
          Facts₀.pads_S128x3_S128x128_000_01250 Facts₀.h_S_ := by
  show StableHlo.after hostOps1_3 (StableHlo.after hostOps1_2 (StableHlo.after hostOps1_1 (StableHlo.after hostOps1 W))) (Proc.devRef .tc main_v2) = _
  rfl
theorem mid_b3 (W : Valuation τ sig (Elt Ideal)) :
    (midOf W (Proc.devRef .tc main_v3) : FVec Ideal S1x128 .f32)
      = pad S1x128 ![0, 0] ![0, 125] ![0, 0] (W (Proc.devRef .tc main_arg6) : FVec Ideal S1x3 .f32) padZero
          Facts₀.pads_S1x3_S1x128_000_01250 Facts₀.h_S_ := by
  show StableHlo.after hostOps1_3 (StableHlo.after hostOps1_2 (StableHlo.after hostOps1_1 (StableHlo.after hostOps1 W))) (Proc.devRef .tc main_v3) = _
  rfl

/-- After the head region: the two results are slices of its packed output. -/
theorem exit_f (W : Valuation τ sig (Elt Ideal)) (b : Fin 256) (q : Fin 128) :
    (StableHlo.after hostOps2 W (Proc.devRef .tc main_v5) : FVec Ideal S256x128 .f32) (ix2 b q)
      = (W (Proc.devRef .tc main_v4) : FVec Ideal S256x256 .f32) (ix2 b ⟨q.val, by omega⟩) := by
  have e : (StableHlo.after hostOps2 W (Proc.devRef .tc main_v5) : FVec Ideal S256x128 .f32)
      = extractStridedSlice S256x128 ![0, 0] (W (Proc.devRef .tc main_v4) : FVec Ideal S256x256 .f32) Facts₀.slices_S256x256_S256x128_0_0 := by
    after_results <;> rfl
  rw [e]
  exact slice2_axis1_apply 0 _ _ b q ⟨q.val, by omega⟩ (Nat.zero_add _).symm
theorem exit_l (W : Valuation τ sig (Elt Ideal)) (b : Fin 256) (j : Fin 3) :
    (StableHlo.after hostOps2 W (Proc.devRef .tc main_v6) : FVec Ideal S256x3 .f32) (ix2 b j)
      = (W (Proc.devRef .tc main_v4) : FVec Ideal S256x256 .f32) (ix2 b ⟨128 + j.val, by omega⟩) := by
  have e : (StableHlo.after hostOps2 W (Proc.devRef .tc main_v6) : FVec Ideal S256x3 .f32)
      = extractStridedSlice S256x3 ![0, 128] (W (Proc.devRef .tc main_v4) : FVec Ideal S256x256 .f32) Facts₀.slices_S256x256_S256x3_0_128 := by
    after_results <;> rfl
  rw [e]
  exact slice2_axis1_apply 128 _ _ b j ⟨128 + j.val, by omega⟩ rfl

end Cert.ReferenceIdeal.Hand

end
-- ==== Proof.ROut.lean ====
/-
  The reference's two results as functions of its argument arrays, at the exact (extended-real) reading: at the
  return the feature result holds `Out.feat` and the logits result `Out.logit` of the launch contents of the seven
  arguments, the last layer's operands padded to 128 columns. The pooled feature the head region reads is what the
  pooling region left; everything else the head reads is an argument or a padded argument.
-/
import proofs.«133866_g2000702716457357_pallasbulk_1135_8_alg».proof.Proof.RRun
import proofs.«133866_g2000702716457357_pallasbulk_1135_8_alg».proof.Proof.RValue
import proofs.«133866_g2000702716457357_pallasbulk_1135_8_alg».proof.Proof.HostR
import proofs.«133866_g2000702716457357_pallasbulk_1135_8_alg».proof.Proof.Out

set_option maxRecDepth 16384

noncomputable section

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

variable (m : (ℓ : Loc nD τ sig) → Buf (Elt Ideal) ℓ) (ρ : Dev nD → PrngReg)

/-- The padded last-layer weights and bias, from the launch contents. -/
abbrev w3p (c : Dev nD) : FVec Ideal S128x128 .f32 :=
  pad S128x128 ![0, 0] ![0, 125] ![0, 0] (m ((c : Thread nD τ).loc main_arg5) : FVec Ideal S128x3 .f32) padZero
    Facts₀.pads_S128x3_S128x128_000_01250 Facts₀.h_S_
abbrev b3p (c : Dev nD) : FVec Ideal S1x128 .f32 :=
  pad S1x128 ![0, 0] ![0, 125] ![0, 0] (m ((c : Thread nD τ).loc main_arg6) : FVec Ideal S1x3 .f32) padZero
    Facts₀.pads_S1x3_S1x128_000_01250 Facts₀.h_S_

/-- The flattening writes only the flattened view. -/
theorem W1_keep (c : Dev nD) (b : Ref sig .tc) (hb : b ≠ main_v0) :
    W1 (F := Ideal) m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    first
      | exact StableHlo.devRef_ne_of_ne hb
      | exact StableHlo.devRef_ne_of_ne hb.symm))

/-- A buffer that is neither the flattened view nor the pooled feature is, when the pooling region ends, as launched. -/
theorem W2_keep (c : Dev nD) (b : Ref sig .tc) (hb : b ≠ main_v0) (hb' : ∀ w, Pipeline.arrRef spec0 w ≠ b) :
    W2 (F := Ideal) m ρ c (Proc.devRef .tc b) = m ((c : Thread nD τ).loc b) :=
  (W2_of_ne m ρ c b hb').trans (W1_keep m ρ c b hb)

/-- Row `b` of the flattened view is row `b` of the input. -/
theorem xRow_eq (c : Dev nD) (b : Fin 256) :
    xRow (V1 (F := Ideal) m ρ) c b = Out.rowOf (m ((c : Thread nD τ).loc main_arg0)) b := by
  funext k s
  exact flat_x (W0 m ρ c) b k s

/-- The pooled feature the head region is entered with. -/
theorem aFeat_eq (c : Dev nD) (b : Fin 256) (k : Fin 1024) :
    aFeat (V6 (F := Ideal) m ρ) c (ix2 b k) = Spec.pool (Out.rowOf (m ((c : Thread nD τ).loc main_arg0)) b) k := by
  rw [show aFeat (V6 (F := Ideal) m ρ) c = (dat0 (V1 m ρ) c).arrAt 1 cfg0.N from (mid_v1 (W2 m ρ c)).trans (W2_arr m ρ c 1)]
  rw [gap_final (V1 m ρ) c b k, xRow_eq]

theorem aW1_eq (c : Dev nD) : aW1 (V6 (F := Ideal) m ρ) c = m ((c : Thread nD τ).loc main_arg1) :=
  (mid_arg1 (W2 m ρ c)).trans (W2_keep m ρ c main_arg1 (by decide) (by decide))
theorem aB1_eq (c : Dev nD) : aB1 (V6 (F := Ideal) m ρ) c = m ((c : Thread nD τ).loc main_arg2) :=
  (mid_arg2 (W2 m ρ c)).trans (W2_keep m ρ c main_arg2 (by decide) (by decide))
theorem aW2_eq (c : Dev nD) : aW2 (V6 (F := Ideal) m ρ) c = m ((c : Thread nD τ).loc main_arg3) :=
  (mid_arg3 (W2 m ρ c)).trans (W2_keep m ρ c main_arg3 (by decide) (by decide))
theorem aB2_eq (c : Dev nD) : aB2 (V6 (F := Ideal) m ρ) c = m ((c : Thread nD τ).loc main_arg4) :=
  (mid_arg4 (W2 m ρ c)).trans (W2_keep m ρ c main_arg4 (by decide) (by decide))
theorem aW3_eq (c : Dev nD) : aW3 (V6 (F := Ideal) m ρ) c = w3p m c := by
  refine (mid_w3 (W2 m ρ c)).trans ?_
  rw [show (W2 (F := Ideal) m ρ c (Proc.devRef .tc main_arg5) : FVec Ideal S128x3 .f32) = m ((c : Thread nD τ).loc main_arg5)
    from W2_keep m ρ c main_arg5 (by decide) (by decide)]
theorem aB3_eq (c : Dev nD) : aB3 (V6 (F := Ideal) m ρ) c = b3p m c := by
  refine (mid_b3 (W2 m ρ c)).trans ?_
  rw [show (W2 (F := Ideal) m ρ c (Proc.devRef .tc main_arg6) : FVec Ideal S1x3 .f32) = m ((c : Thread nD τ).loc main_arg6)
    from W2_keep m ρ c main_arg6 (by decide) (by decide)]

/-- Both ReLU layers of row `b`, from the arguments. -/
theorem hidden_eq (c : Dev nD) (b : Fin 256) :
    hidden (V6 (F := Ideal) m ρ) c b
      = Spec.layer (Spec.layer (Spec.pool (Out.rowOf (m ((c : Thread nD τ).loc main_arg0)) b))
          (fun i j => (m ((c : Thread nD τ).loc main_arg1) : FVec Ideal S1024x512 .f32) (ix2 i j))
          (fun j => (m ((c : Thread nD τ).loc main_arg2) : FVec Ideal S1x512 .f32) (ix2 0 j)))
          (fun i j => (m ((c : Thread nD τ).loc main_arg3) : FVec Ideal S512x128 .f32) (ix2 i j))
          (fun j => (m ((c : Thread nD τ).loc main_arg4) : FVec Ideal S1x128 .f32) (ix2 0 j)) := by
  unfold hidden
  rw [aW1_eq, aB1_eq, aW2_eq, aB2_eq, show (fun k => aFeat (V6 (F := Ideal) m ρ) c (ix2 b k))
    = Spec.pool (Out.rowOf (m ((c : Thread nD τ).loc main_arg0)) b) from funext fun k => aFeat_eq m ρ c b k]

/-- The feature result at the return. -/
theorem out_f (c : Dev nD) :
    W8 (F := Ideal) m ρ c (Proc.devRef .tc main_v5)
      = Out.feat (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨b, q, rfl⟩ : ∃ (b : Fin 256) (q : Fin 128), i = ix2 b q := ⟨i 0, i 1, eq_ix2 i⟩
  refine (exit_f (W7 m ρ c) b q).trans ?_
  rw [show (W7 (F := Ideal) m ρ c (Proc.devRef .tc main_v4) : FVec Ideal S256x256 .f32) = (dat1 (V6 m ρ) c).arrAt 7 cfg1.N
    from W7_arr m ρ c 7]
  rw [head_final_f (V6 m ρ) c b q, hidden_eq]
  rfl

/-- The logits result at the return. -/
theorem out_l (c : Dev nD) :
    W8 (F := Ideal) m ρ c (Proc.devRef .tc main_v6)
      = Out.logit (m ((c : Thread nD τ).loc main_arg0)) (m ((c : Thread nD τ).loc main_arg1)) (m ((c : Thread nD τ).loc main_arg2))
          (m ((c : Thread nD τ).loc main_arg3)) (m ((c : Thread nD τ).loc main_arg4)) (w3p m c) (b3p m c) := by
  funext i
  obtain ⟨b, j, rfl⟩ : ∃ (b : Fin 256) (j : Fin 3), i = ix2 b j := ⟨i 0, i 1, eq_ix2 i⟩
  refine (exit_l (W7 m ρ c) b j).trans ?_
  rw [show (W7 (F := Ideal) m ρ c (Proc.devRef .tc main_v4) : FVec Ideal S256x256 .f32) = (dat1 (V6 m ρ) c).arrAt 7 cfg1.N
    from W7_arr m ρ c 7]
  rw [head_final_l (V6 m ρ) c b ⟨j.val, by omega⟩, hidden_eq, aW3_eq, aB3_eq]
  rfl

end Cert.ReferenceIdeal.Hand

end
-- ==== Proof.lean ====
/-
  The certificate of a fused classifier-head kernel against its two-kernel reference: global average pooling over
  the 7 x 7 map, two ReLU layers (1024 -> 512 -> 128), scaling to unit length, and a last affine layer padded from 3 to
  128 columns of which the first three are returned.

  The mathematics (Proof/Spec.lean, Proof/Out.lean): both programs compute, for every batch row, the same functions of
  that row. The kernel pools by summing its spatially-major view over the 49 positions of the major axis, handles 32
  rows per grid point and reads the view through two channel-half windows; the reference pools the channel-major view
  over its minor axis in blocks of 16 rows by 256 channels and then runs the head once on all 256 rows. Over the
  extended reals a finite sum does not depend on the order or grouping of its terms, a change of float format is the
  identity, and both programs spell the same literals (the single-precision constants nearest 1/49 and 1e-24), so
  the two sides are one function of the arguments; no finiteness of the inputs is needed.

  The frames: the reference's is the generated one; the kernel's (Proof/KBody.lean, Proof/KRun.lean for the idealized
  program, the same text for the program as printed) runs the pipeline rule with the view's share split between the
  two windows that read it. The idealization rewrote nothing, so `preserves` is trivial.
-/
import proofs.«133866_g2000702716457357_pallasbulk_1135_8_alg».proof.Defs
import proofs.«133866_g2000702716457357_pallasbulk_1135_8_alg».proof.Proof.Gen.Kernel
import proofs.«133866_g2000702716457357_pallasbulk_1135_8_alg».proof.Proof.Gen.KernelIdeal
import proofs.«133866_g2000702716457357_pallasbulk_1135_8_alg».proof.Proof.Gen.ReferenceIdeal
import proofs.«133866_g2000702716457357_pallasbulk_1135_8_alg».proof.Proof.Gen.ReferenceIdeal.Frame
import proofs.«133866_g2000702716457357_pallasbulk_1135_8_alg».proof.Proof.Gen.Pre_finite_inputs
import proofs.«133866_g2000702716457357_pallasbulk_1135_8_alg».proof.Proof.KernelRun
import proofs.«133866_g2000702716457357_pallasbulk_1135_8_alg».proof.Proof.KRun
import proofs.«133866_g2000702716457357_pallasbulk_1135_8_alg».proof.Proof.KOut
import proofs.«133866_g2000702716457357_pallasbulk_1135_8_alg».proof.Proof.ROut
import Idealize.ShloMosaic.Adequacy
import Idealize.ShloMosaic.Init

set_option maxRecDepth 16384

noncomputable section

namespace Cert.Proof

open Idealize.ShloMosaic Idealize.ShloMosaic.TcCoe Idealize.SL.Sem

/-- The word-level kernel terminates without a fault and leaves its arguments as launched. -/
theorem frame_kernel [Cert.Kernel.Facts] [Cert.Pre_finite_inputs.Facts] : Cert.frame_Kernel :=
  fun m ρ _ => Cert.Kernel.Hand.frame m ρ

/-- So does the idealized kernel. -/
theorem frame_kernelIdeal [Cert.KernelIdeal.Facts] [Cert.Pre_finite_inputs.Facts] : Cert.frame_KernelIdeal :=
  fun m ρ _ => Cert.KernelIdeal.Hand.frame m ρ

/-- And the idealized reference. -/
theorem frame_referenceIdeal [Cert.ReferenceIdeal.Facts] [Cert.Pre_finite_inputs.Facts] : Cert.frame_ReferenceIdeal :=
  fun m ρ _ => Cert.ReferenceIdeal.Gen.frame m ρ

/-- Over the extended reals the idealized kernel and the idealized reference, run from memories that agree on the
    seven arguments, end with the same two results: `Out.feat` and `Out.logit` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Out.feat (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Out.logit (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (Cert.KernelIdeal.Hand.w3p m c) (Cert.KernelIdeal.Hand.b3p m c), ?_, ?_⟩
  · -- the kernel's run: every host-visible buffer at the return is named; read the two results and the arguments
    refine (θ_run Cert.KernelIdeal.defs _ _).mono (fun r h c => ⟨?_, ?_, ?_, ?_, ?_, ?_, ?_, ?_, ?_⟩)
      (Cert.KernelIdeal.Hand.run_all (F := Ideal) m ρ)
    · exact (h c _ (Cert.KernelIdeal.Hand.mem_uc Cert.KernelIdeal.main_v4_0 (by decide))).trans (Cert.KernelIdeal.Hand.out_f m ρ c)
    · exact (h c _ (Cert.KernelIdeal.Hand.mem_uc Cert.KernelIdeal.main_v5 (by decide))).trans (Cert.KernelIdeal.Hand.out_l m ρ c)
    · exact (h c _ (Cert.KernelIdeal.Hand.mem_uc Cert.KernelIdeal.main_arg0 (by decide))).trans (Cert.KernelIdeal.Hand.W6_of_unwritten m ρ c _ (by decide))
    · exact (h c _ (Cert.KernelIdeal.Hand.mem_uc Cert.KernelIdeal.main_arg1 (by decide))).trans (Cert.KernelIdeal.Hand.W6_of_unwritten m ρ c _ (by decide))
    · exact (h c _ (Cert.KernelIdeal.Hand.mem_uc Cert.KernelIdeal.main_arg2 (by decide))).trans (Cert.KernelIdeal.Hand.W6_of_unwritten m ρ c _ (by decide))
    · exact (h c _ (Cert.KernelIdeal.Hand.mem_uc Cert.KernelIdeal.main_arg3 (by decide))).trans (Cert.KernelIdeal.Hand.W6_of_unwritten m ρ c _ (by decide))
    · exact (h c _ (Cert.KernelIdeal.Hand.mem_uc Cert.KernelIdeal.main_arg4 (by decide))).trans (Cert.KernelIdeal.Hand.W6_of_unwritten m ρ c _ (by decide))
    · exact (h c _ (Cert.KernelIdeal.Hand.mem_uc Cert.KernelIdeal.main_arg5 (by decide))).trans (Cert.KernelIdeal.Hand.W6_of_unwritten m ρ c _ (by decide))
    · exact (h c _ (Cert.KernelIdeal.Hand.mem_uc Cert.KernelIdeal.main_arg6 (by decide))).trans (Cert.KernelIdeal.Hand.W6_of_unwritten m ρ c _ (by decide))
  · -- the reference's run, the same way; its results are the same functions of ITS arguments, which agree with the kernel's
    refine (θ_run Cert.ReferenceIdeal.defs _ _).mono (fun r h c => ⟨?_, ?_, ?_, ?_, ?_, ?_, ?_, ?_, ?_⟩)
      (Cert.ReferenceIdeal.Hand.run_all (F := Ideal) m' ρ')
    · refine (h c _ (Cert.ReferenceIdeal.Gen.mem_uc Cert.ReferenceIdeal.main_v5 (by decide))).trans ((Cert.ReferenceIdeal.Hand.out_f m' ρ' c).trans ?_)
      rw [(hagree c).1, (hagree c).2.1, (hagree c).2.2.1, (hagree c).2.2.2.1, (hagree c).2.2.2.2.1]
    · refine (h c _ (Cert.ReferenceIdeal.Gen.mem_uc Cert.ReferenceIdeal.main_v6 (by decide))).trans ((Cert.ReferenceIdeal.Hand.out_l m' ρ' c).trans ?_)
      unfold Cert.ReferenceIdeal.Hand.w3p Cert.ReferenceIdeal.Hand.b3p
      rw [(hagree c).1, (hagree c).2.1, (hagree c).2.2.1, (hagree c).2.2.2.1, (hagree c).2.2.2.2.1, (hagree c).2.2.2.2.2.1, (hagree c).2.2.2.2.2.2]
    · exact (h c _ (Cert.ReferenceIdeal.Gen.mem_uc Cert.ReferenceIdeal.main_arg0 (by decide))).trans (Cert.ReferenceIdeal.Gen.W8_main_arg0 m' ρ' c)
    · exact (h c _ (Cert.ReferenceIdeal.Gen.mem_uc Cert.ReferenceIdeal.main_arg1 (by decide))).trans (Cert.ReferenceIdeal.Gen.W8_main_arg1 m' ρ' c)
    · exact (h c _ (Cert.ReferenceIdeal.Gen.mem_uc Cert.ReferenceIdeal.main_arg2 (by decide))).trans (Cert.ReferenceIdeal.Gen.W8_main_arg2 m' ρ' c)
    · exact (h c _ (Cert.ReferenceIdeal.Gen.mem_uc Cert.ReferenceIdeal.main_arg3 (by decide))).trans (Cert.ReferenceIdeal.Gen.W8_main_arg3 m' ρ' c)
    · exact (h c _ (Cert.ReferenceIdeal.Gen.mem_uc Cert.ReferenceIdeal.main_arg4 (by decide))).trans (Cert.ReferenceIdeal.Gen.W8_main_arg4 m' ρ' c)
    · exact (h c _ (Cert.ReferenceIdeal.Gen.mem_uc Cert.ReferenceIdeal.main_arg5 (by decide))).trans (Cert.ReferenceIdeal.Gen.W8_main_arg5 m' ρ' c)
    · exact (h c _ (Cert.ReferenceIdeal.Gen.mem_uc Cert.ReferenceIdeal.main_arg6 (by decide))).trans (Cert.ReferenceIdeal.Gen.W8_main_arg6 m' ρ' c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
